-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1000000 32) (main_arg2 : FVec F S64x64 .f32) (main_arg3 : FVec F S64 .f32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S5000x64 : Shape := ⟨2, ![5000, 64]⟩
abbrev S5000x1 : Shape := ⟨2, ![5000, 1]⟩
abbrev S1000000x64 : Shape := ⟨2, ![1000000, 64]⟩
abbrev S1x64 : Shape := ⟨2, ![1, 64]⟩

abbrev nBuf : Space → Nat
  | .hbm => 106
  | .vmem => 32
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1000000, .i32⟩
  | .hbm, ⟨7, _⟩ => ⟨S1000000, .i32⟩
  | .hbm, ⟨8, _⟩ => ⟨S1x1000000, .i32⟩
  | .hbm, ⟨9, _⟩ => ⟨S1000000, .i32⟩
  | .hbm, ⟨10, _⟩ => ⟨S_, .f32⟩
  | .hbm, ⟨11, _⟩ => ⟨S100000, .f32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S_, .f32⟩
  | .hbm, ⟨21, _⟩ => ⟨S1000000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x64, .f32⟩
  | .hbm, ⟨29, _⟩ => ⟨S100000x64, .f32⟩
  | .hbm, ⟨30, _⟩ => ⟨S_, .i32⟩
  | .hbm, ⟨31, _⟩ => ⟨S1000000, .i32⟩
  | .hbm, ⟨32, _⟩ => ⟨S1000000, .i1⟩
  | .hbm, ⟨33, _⟩ => ⟨S_, .i32⟩
  | .hbm, ⟨34, _⟩ => ⟨S1000000, .i32⟩
  | .hbm, ⟨35, _⟩ => ⟨S1000000, .i32⟩
  | .hbm, ⟨36, _⟩ => ⟨S1000000, .i32⟩
  | .hbm, ⟨37, _⟩ => ⟨S1000000x1, .i32⟩
  | .hbm, ⟨38, _⟩ => ⟨S1000000, .f32⟩
  | .hbm, ⟨39, _⟩ => ⟨S_, .i32⟩
  | .hbm, ⟨40, _⟩ => ⟨S1000000, .i32⟩
  | .hbm, ⟨41, _⟩ => ⟨S1000000, .i1⟩
  | .hbm, ⟨42, _⟩ => ⟨S_, .i32⟩
  | .hbm, ⟨43, _⟩ => ⟨S1000000, .i32⟩
  | .hbm, ⟨44, _⟩ => ⟨S1000000, .i32⟩
  | .hbm, ⟨45, _⟩ => ⟨S1000000, .i32⟩
  | .hbm, ⟨46, _⟩ => ⟨S1000000x1, .i32⟩
  | .hbm, ⟨47, _⟩ => ⟨S1000000, .f32⟩
  | .hbm, ⟨48, _⟩ => ⟨S1000000, .f32⟩
  | .hbm, ⟨49, _⟩ => ⟨S_, .i32⟩
  | .hbm, ⟨50, _⟩ => ⟨S1000000, .i32⟩
  | .hbm, ⟨51, _⟩ => ⟨S1000000, .i1⟩
  | .hbm, ⟨52, _⟩ => ⟨S_, .i32⟩
  | .hbm, ⟨53, _⟩ => ⟨S1000000, .i32⟩
  | .hbm, ⟨54, _⟩ => ⟨S1000000, .i32⟩
  | .hbm, ⟨55, _⟩ => ⟨S1000000, .i32⟩
  | .hbm, ⟨56, _⟩ => ⟨S1000000x1, .i32⟩
  | .hbm, ⟨57, _⟩ => ⟨S1000000x64, .f32⟩
  | .hbm, ⟨58, _⟩ => ⟨S1000000x1, .f32⟩
  | .hbm, ⟨59, _⟩ => ⟨S1000000x64, .f32⟩
  | .hbm, ⟨60, _⟩ => ⟨S1000000x64, .f32⟩
  | .hbm, ⟨61, _⟩ => ⟨S_, .f32⟩
  | .hbm, ⟨62, _⟩ => ⟨S100000x64, .f32⟩
  | .hbm, ⟨63, _⟩ => ⟨S1000000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S_, .i32⟩
  | .hbm, ⟨70, _⟩ => ⟨S1000000, .i32⟩
  | .hbm, ⟨71, _⟩ => ⟨S1000000, .i1⟩
  | .hbm, ⟨72, _⟩ => ⟨S_, .i32⟩
  | .hbm, ⟨73, _⟩ => ⟨S1000000, .i32⟩
  | .hbm, ⟨74, _⟩ => ⟨S1000000, .i32⟩
  | .hbm, ⟨75, _⟩ => ⟨S1000000, .i32⟩
  | .hbm, ⟨76, _⟩ => ⟨S1000000x1, .i32⟩
  | .hbm, ⟨77, _⟩ => ⟨S1000000, .f32⟩
  | .hbm, ⟨78, _⟩ => ⟨S_, .i32⟩
  | .hbm, ⟨79, _⟩ => ⟨S1000000, .i32⟩
  | .hbm, ⟨80, _⟩ => ⟨S1000000, .i1⟩
  | .hbm, ⟨81, _⟩ => ⟨S_, .i32⟩
  | .hbm, ⟨82, _⟩ => ⟨S1000000, .i32⟩
  | .hbm, ⟨83, _⟩ => ⟨S1000000, .i32⟩
  | .hbm, ⟨84, _⟩ => ⟨S1000000, .i32⟩
  | .hbm, ⟨85, _⟩ => ⟨S1000000x1, .i32⟩
  | .hbm, ⟨86, _⟩ => ⟨S1000000, .f32⟩
  | .hbm, ⟨87, _⟩ => ⟨S1000000, .f32⟩
  | .hbm, ⟨88, _⟩ => ⟨S_, .i32⟩
  | .hbm, ⟨89, _⟩ => ⟨S1000000, .i32⟩
  | .hbm, ⟨90, _⟩ => ⟨S1000000, .i1⟩
  | .hbm, ⟨91, _⟩ => ⟨S_, .i32⟩
  | .hbm, ⟨92, _⟩ => ⟨S1000000, .i32⟩
  | .hbm, ⟨93, _⟩ => ⟨S1000000, .i32⟩
  | .hbm, ⟨94, _⟩ => ⟨S1000000, .i32⟩
  | .hbm, ⟨95, _⟩ => ⟨S1000000x1, .i32⟩
  | .hbm, ⟨96, _⟩ => ⟨S1000000x64, .f32⟩
  | .hbm, ⟨97, _⟩ => ⟨S1000000x1, .f32⟩
  | .hbm, ⟨98, _⟩ => ⟨S1000000x64, .f32⟩
  | .hbm, ⟨99, _⟩ => ⟨S1000000x64, .f32⟩
  | .hbm, ⟨100, _⟩ => ⟨S_, .f32⟩
  | .hbm, ⟨101, _⟩ => ⟨S100000x64, .f32⟩
  | .hbm, ⟨102, _⟩ => ⟨S1000000x1, .i32⟩
  | .hbm, ⟨103, _⟩ => ⟨S100000x64, .f32⟩
  | .hbm, ⟨104, _⟩ => ⟨S1x64, .f32⟩
  | .hbm, ⟨105, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S5000x1, .f32⟩
  | .local _ .vmem, ⟨20, _⟩ => ⟨S5000x1, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_c_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_c_8 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48_0 : Ref sig .tc := ⟨.hbm, 67, rfl⟩
abbrev main_v48_1 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_12 : Ref sig .tc := ⟨.hbm, 78, rfl⟩
abbrev main_v56 : Ref sig .tc := ⟨.hbm, 79, rfl⟩
abbrev main_v57 : Ref sig .tc := ⟨.hbm, 80, rfl⟩
abbrev main_c_13 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_14 : Ref sig .tc := ⟨.hbm, 88, rfl⟩
abbrev main_v64 : Ref sig .tc := ⟨.hbm, 89, rfl⟩
abbrev main_v65 : Ref sig .tc := ⟨.hbm, 90, rfl⟩
abbrev main_c_15 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem4_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem3_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S100000 : S_.BroadcastsInDim S100000 (![] : Fin 0 → Fin S100000.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S5000x64_S5000x64 : S5000x64.ShapeCasts S5000x64
  scatter_S100000_S1000000x1_S1000000_n_0_0_1_wf : ScatterDims.WF S100000 S1000000x1 S1000000 [] [0] [0] 1
  dot_S5000x64_S64x64_S5000x64_1_0_0_1_n_n_wf : DotDims.WF S5000x64 S64x64 S5000x64 [1] [0] [0] [1] [] []
  gather_S100000_S1000000x1_S1000000_n_0_n_n_0_1_1_wf : GatherDims.WF S100000 S1000000x1 S1000000 [] [0] [] [0] [] 1 ![1]
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17_0) S5000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17_1) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17_1) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v47) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v48_0) S5000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v48_1) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v76) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48_1) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v77) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v78) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S1000000x64 : Shape := ⟨2, ![1000000, 64]⟩
abbrev S100000x1 : Shape := ⟨2, ![100000, 1]⟩
abbrev S1x64 : Shape := ⟨2, ![1, 64]⟩

abbrev nBuf : Space → Nat
  | .hbm => 135
  | .vmem => 0
  | .smem => 0
  | _ => 0

abbrev hbmTy0_0 (i : Nat) : BufTy := match i % 128 with
  | 0 => ⟨S100000x64, .f32⟩
  | 1 => ⟨S2x1000000, .i32⟩
  | 2 => ⟨S64x64, .f32⟩
  | 3 => ⟨S64, .f32⟩
  | 4 => ⟨S64x64, .f32⟩
  | 5 => ⟨S64, .f32⟩
  | 6 => ⟨S1x1000000, .i32⟩
  | 7 => ⟨S1000000, .i32⟩
  | 8 => ⟨S1x1000000, .i32⟩
  | 9 => ⟨S1000000, .i32⟩
  | 10 => ⟨S100000x64, .f32⟩
  | 11 => ⟨S_, .f32⟩
  | 12 => ⟨S100000, .f32⟩
  | 13 => ⟨S_, .i32⟩
  | 14 => ⟨S1000000, .i32⟩
  | 15 => ⟨S1000000, .i1⟩
  | 16 => ⟨S_, .i32⟩
  | 17 => ⟨S1000000, .i32⟩
  | 18 => ⟨S1000000, .i32⟩
  | 19 => ⟨S1000000, .i32⟩
  | 20 => ⟨S1000000x1, .i32⟩
  | 21 => ⟨S_, .f32⟩
  | 22 => ⟨S1000000, .f32⟩
  | 23 => ⟨S100000, .f32⟩
  | 24 => ⟨S_, .f32⟩
  | 25 => ⟨S100000, .f32⟩
  | 26 => ⟨S100000, .f32⟩
  | 27 => ⟨S100000, .f32⟩
  | 28 => ⟨S_, .i32⟩
  | 29 => ⟨S1000000, .i32⟩
  | 30 => ⟨S1000000, .i1⟩
  | 31 => ⟨S_, .i32⟩
  | 32 => ⟨S1000000, .i32⟩
  | 33 => ⟨S1000000, .i32⟩
  | 34 => ⟨S1000000, .i32⟩
  | 35 => ⟨S1000000x1, .i32⟩
  | 36 => ⟨S1000000, .f32⟩
  | 37 => ⟨S_, .i32⟩
  | 38 => ⟨S1000000, .i32⟩
  | 39 => ⟨S1000000, .i1⟩
  | 40 => ⟨S_, .i32⟩
  | 41 => ⟨S1000000, .i32⟩
  | 42 => ⟨S1000000, .i32⟩
  | 43 => ⟨S1000000, .i32⟩
  | 44 => ⟨S1000000x1, .i32⟩
  | 45 => ⟨S1000000, .f32⟩
  | 46 => ⟨S1000000, .f32⟩
  | 47 => ⟨S_, .i32⟩
  | 48 => ⟨S1000000, .i32⟩
  | 49 => ⟨S1000000, .i1⟩
  | 50 => ⟨S_, .i32⟩
  | 51 => ⟨S1000000, .i32⟩
  | 52 => ⟨S1000000, .i32⟩
  | 53 => ⟨S1000000, .i32⟩
  | 54 => ⟨S1000000x1, .i32⟩
  | 55 => ⟨S1000000x64, .f32⟩
  | 56 => ⟨S1000000x1, .f32⟩
  | 57 => ⟨S1000000x64, .f32⟩
  | 58 => ⟨S1000000x64, .f32⟩
  | 59 => ⟨S_, .f32⟩
  | 60 => ⟨S100000x64, .f32⟩
  | 61 => ⟨S1000000x1, .i32⟩
  | 62 => ⟨S100000x64, .f32⟩
  | 63 => ⟨S100000, .f32⟩
  | 64 => ⟨S100000x1, .f32⟩
  | 65 => ⟨S100000x64, .f32⟩
  | 66 => ⟨S100000x64, .f32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S100000x64, .f32⟩
  | 75 => ⟨S_, .f32⟩
  | 76 => ⟨S100000, .f32⟩
  | 77 => ⟨S_, .i32⟩
  | 78 => ⟨S1000000, .i32⟩
  | 79 => ⟨S1000000, .i1⟩
  | 80 => ⟨S_, .i32⟩
  | 81 => ⟨S1000000, .i32⟩
  | 82 => ⟨S1000000, .i32⟩
  | 83 => ⟨S1000000, .i32⟩
  | 84 => ⟨S1000000x1, .i32⟩
  | 85 => ⟨S_, .f32⟩
  | 86 => ⟨S1000000, .f32⟩
  | 87 => ⟨S100000, .f32⟩
  | 88 => ⟨S_, .f32⟩
  | 89 => ⟨S100000, .f32⟩
  | 90 => ⟨S100000, .f32⟩
  | 91 => ⟨S100000, .f32⟩
  | 92 => ⟨S_, .i32⟩
  | 93 => ⟨S1000000, .i32⟩
  | 94 => ⟨S1000000, .i1⟩
  | 95 => ⟨S_, .i32⟩
  | 96 => ⟨S1000000, .i32⟩
  | 97 => ⟨S1000000, .i32⟩
  | 98 => ⟨S1000000, .i32⟩
  | 99 => ⟨S1000000x1, .i32⟩
  | 100 => ⟨S1000000, .f32⟩
  | 101 => ⟨S_, .i32⟩
  | 102 => ⟨S1000000, .i32⟩
  | 103 => ⟨S1000000, .i1⟩
  | 104 => ⟨S_, .i32⟩
  | 105 => ⟨S1000000, .i32⟩
  | 106 => ⟨S1000000, .i32⟩
  | 107 => ⟨S1000000, .i32⟩
  | 108 => ⟨S1000000x1, .i32⟩
  | 109 => ⟨S1000000, .f32⟩
  | 110 => ⟨S1000000, .f32⟩
  | 111 => ⟨S_, .i32⟩
  | 112 => ⟨S1000000, .i32⟩
  | 113 => ⟨S1000000, .i1⟩
  | 114 => ⟨S_, .i32⟩
  | 115 => ⟨S1000000, .i32⟩
  | 116 => ⟨S1000000, .i32⟩
  | 117 => ⟨S1000000, .i32⟩
  | 118 => ⟨S1000000x1, .i32⟩
  | 119 => ⟨S1000000x64, .f32⟩
  | 120 => ⟨S1000000x1, .f32⟩
  | 121 => ⟨S1000000x64, .f32⟩
  | 122 => ⟨S1000000x64, .f32⟩
  | 123 => ⟨S_, .f32⟩
  | 124 => ⟨S100000x64, .f32⟩
  | 125 => ⟨S1000000x1, .i32⟩
  | 126 => ⟨S100000x64, .f32⟩
  | 127 => ⟨S100000, .f32⟩
  | _ => ⟨S100000x64, .f32⟩

abbrev hbmTy0_1 (i : Nat) : BufTy := match i % 128 with
  | 0 => ⟨S100000x1, .f32⟩
  | 1 => ⟨S100000x64, .f32⟩
  | 2 => ⟨S100000x64, .f32⟩
  | 3 => ⟨S100000x64, .f32⟩
  | 4 => ⟨S1x64, .f32⟩
  | 5 => ⟨S100000x64, .f32⟩
  | 6 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_call0_cst : Ref sig .tc := ⟨.hbm, 71, rfl⟩
abbrev main_call0_v0 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_c_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_cst_14 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_15 : Ref sig .tc := ⟨.hbm, 92, rfl⟩
abbrev main_v67 : Ref sig .tc := ⟨.hbm, 93, rfl⟩
abbrev main_v68 : Ref sig .tc := ⟨.hbm, 94, rfl⟩
abbrev main_c_16 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_17 : Ref sig .tc := ⟨.hbm, 101, rfl⟩
abbrev main_v74 : Ref sig .tc := ⟨.hbm, 102, rfl⟩
abbrev main_v75 : Ref sig .tc := ⟨.hbm, 103, rfl⟩
abbrev main_c_18 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_c_19 : Ref sig .tc := ⟨.hbm, 111, rfl⟩
abbrev main_v82 : Ref sig .tc := ⟨.hbm, 112, rfl⟩
abbrev main_v83 : Ref sig .tc := ⟨.hbm, 113, rfl⟩
abbrev main_c_20 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_21 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S100000 : S_.BroadcastsInDim S100000 (![] : Fin 0 → Fin S100000.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x64_S64x64_S100000x64_1_0_0_1_n_n_wf : DotDims.WF S100000x64 S64x64 S100000x64 [1] [0] [0] [1] [] []
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

class Facts : Prop extends Facts₀ where

variable [Facts]
-- ==== Proof.Layer.lean ====
/-
  A two-layer graph convolution with symmetric normalisation, as one function of its inputs.

  Nodes 0 … 99999 carry rows of 64 numbers; the edge list has a row of sources and a row of destinations, 1000000
  edges. A node's degree is one (its own loop) plus the number of edges that end in it, and dis is the degree's
  inverse square root. One convolution sends the rows h = x · W to

      out(i) = Σ_{e : dst e = i} h(src e) · (dis(src e) · dis(dst e))  +  h(i) · (dis(i) · dis(i))  +  b,

  the first sum written as a gather of rows, a scaling and a scatter-add. The network is a convolution, the
  rectifier max(·, 0), and a second convolution; the degrees are those of the one edge list in both layers.

  Everything here is spelt with the host's array operations, generic in the float family, so that a program whose
  lines are these operations is this function by unfolding, and so that the gather and the scatter never have to be
  opened: two programs that feed them equal arrays get equal arrays back.
-/
import proofs.«151515_j12128987644486_1_alg».proof.Proof.Gen.ReferenceIdeal

noncomputable section

namespace Cert.Gcn

open Idealize.ShloMosaic Cert.ReferenceIdeal Cert.ReferenceIdeal.Facts₀

variable {F : FTy → Type} [FloatOps F]

/-- The edge list's row of sources, as a vector. -/
def srcOf (e : Vec F S2x1000000 .i32) : Vec F S1000000 .i32 :=
  shapeCast S1000000 (extractStridedSlice S1x1000000 ![0, 0] e slices_S2x1000000_S1x1000000_0_0) shapeCasts_S1x1000000_S1000000

/-- The edge list's row of destinations, as a vector. -/
def dstOf (e : Vec F S2x1000000 .i32) : Vec F S1000000 .i32 :=
  shapeCast S1000000 (extractStridedSlice S1x1000000 ![1, 0] e slices_S2x1000000_S1x1000000_1_0) shapeCasts_S1x1000000_S1000000

/-- Node numbers as a column of one-entry index vectors, a negative number counted back from 100000. -/
def wrapCol (v : Vec F S1000000 .i32) : Vec F S1000000x1 .i32 :=
  broadcastInDim S1000000x1 ![0] bcast_S1000000_S1000000x1_0
    (select (cmpi .slt v (broadcastInDim S1000000 ![] bcast_S_S1000000 (constantI S_ 32 0#32)))
      (addi v (broadcastInDim S1000000 ![] bcast_S_S1000000 (constantI S_ 32 100000#32))) v)

/-- dis: one over the square root of (1 + the number of edges ending in the node). -/
def invSqrtDeg (dst : Vec F S1000000 .i32) : Vec F S100000 .f32 :=
  Host.rsqrt (addf
    (Host.scatterAdd scatter_S100000_S1000000x1_S1000000_n_0_0_1
      (broadcastInDim S100000 ![] bcast_S_S100000 (constant S_ .f32 0x00000000#32)) (wrapCol dst)
      (broadcastInDim S1000000 ![] bcast_S_S1000000 (constant S_ .f32 0x3F800000#32)))
    (broadcastInDim S100000 ![] bcast_S_S100000 (constant S_ .f32 0x3F800000#32)))

/-- The neighbour sum: row src e of h, scaled by dis(src e) · dis(dst e), added into row dst e, over all edges. -/
def aggregate (h : Vec F S100000x64 .f32) (dis : Vec F S100000 .f32) (src dst : Vec F S1000000 .i32) : Vec F S100000x64 .f32 :=
  Host.scatterAdd scatter_S100000x64_S1000000x1_S1000000x64_1_0_0_1
    (broadcastInDim S100000x64 ![] bcast_S_S100000x64 (constant S_ .f32 0x00000000#32))
    (broadcastInDim S1000000x1 ![0] bcast_S1000000_S1000000x1_0 dst)
    (mulf (Host.gather gather_S100000x64_S1000000x1_S1000000x64_1_0_n_n_0_1_164 h (wrapCol src))
      (broadcastInDim S1000000x64 ![0, 1] bcast_S1000000x1_S1000000x64_0_1
        (broadcastInDim S1000000x1 ![0] bcast_S1000000_S1000000x1_0
          (mulf (Host.gather gather_S100000_S1000000x1_S1000000_n_0_n_n_0_1_1 dis (wrapCol src))
            (Host.gather gather_S100000_S1000000x1_S1000000_n_0_n_n_0_1_1 dis (wrapCol dst))))))

/-- The product of the node rows with the layer's matrix. -/
def rowsTimes (x : Vec F S100000x64 .f32) (w : Vec F S64x64 .f32) : Vec F S100000x64 .f32 :=
  Host.dotGeneral dot_S100000x64_S64x64_S100000x64_1_0_0_1_n_n none x w

/-- The node's own term: row i of h times dis(i) · dis(i). -/
def selfLoop (h : Vec F S100000x64 .f32) (dis : Vec F S100000 .f32) : Vec F S100000x64 .f32 :=
  mulf h (broadcastInDim S100000x64 ![0, 1] bcast_S100000x1_S100000x64_0_1
    (broadcastInDim S100000x1 ![0] bcast_S100000_S100000x1_0 (mulf dis dis)))

/-- The bias, the same row of 64 numbers under every node. -/
def biasRows (b : Vec F S64 .f32) : Vec F S100000x64 .f32 :=
  broadcastInDim S100000x64 ![0, 1] bcast_S1x64_S100000x64_0_1 (broadcastInDim S1x64 ![1] bcast_S64_S1x64_1 b)

/-- Neighbour sum, own term and bias of given rows h. -/
def combine (h agg : Vec F S100000x64 .f32) (dis : Vec F S100000 .f32) (b : Vec F S64 .f32) : Vec F S100000x64 .f32 :=
  addf (addf agg (selfLoop h dis)) (biasRows b)

/-- One convolution. -/
def conv (x : Vec F S100000x64 .f32) (w : Vec F S64x64 .f32) (b : Vec F S64 .f32) (dis : Vec F S100000 .f32)
    (src dst : Vec F S1000000 .i32) : Vec F S100000x64 .f32 :=
  combine (rowsTimes x w) (aggregate (rowsTimes x w) dis src dst) dis b

/-- The rectifier max(·, 0). -/
def rectify (z : Vec F S100000x64 .f32) : Vec F S100000x64 .f32 :=
  maximumf z (broadcastInDim S100000x64 ![] bcast_S_S100000x64 (constant S_ .f32 0x00000000#32))

/-- The network: convolution, rectifier, convolution, over one edge list. -/
def net (x : Vec F S100000x64 .f32) (e : Vec F S2x1000000 .i32) (w1 : Vec F S64x64 .f32) (b1 : Vec F S64 .f32)
    (w2 : Vec F S64x64 .f32) (b2 : Vec F S64 .f32) : Vec F S100000x64 .f32 :=
  conv (rectify (conv x w1 b1 (invSqrtDeg (dstOf e)) (srcOf e) (dstOf e))) w2 b2 (invSqrtDeg (dstOf e)) (srcOf e) (dstOf e)

end Cert.Gcn

end
-- ==== Proof.LibBlocks.lean ====
/-
  ROW BLOCKS OF A TWO-AXIS ARRAY, AND TWO BLOCK BODIES READ AT ONE ELEMENT.

  An array [N, b] is worked in blocks of n consecutive rows: block t holds rows n t … n t + n - 1, so row r lies in
  block r / n at local row r - n (r / n) (row_in_block). Two bodies of such a block, each set beside the whole-array
  operation it is a block of, at the extended reals:

  * bias and rectifier: element (p, q) of max(block + bias row, 0) is max(block (p, q) + bias (0, q), 0), and element
    (r, q) of max(array + bias row broadcast down the rows, 0) is max(array (r, q) + bias (0, q), 0): equal when block
    element (p, q) is array element (r, q) (biasRelu_apply);
  * matrix product: element (p, q) of a block [n, K] times a matrix [K, b], accumulated from zero, is the sum over k of
    block (p, k) matrix (k, q), and element (r, q) of the host's product of the array [N, K] with the matrix is the sum
    over k of array (r, k) matrix (k, q): equal when block row p is array row r (matmul_plain_apply,
    dotGeneral_plain_apply, matmul_eq_dotGeneral_apply). A change of float format on the way in is the identity here.

  Generic in the extents; a program's dimension numbers enter through an equation with the library's plain
  rows-by-columns record.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibBlocks

open Idealize.ShloMosaic Idealize.ShloMosaic.ValueIdx

/-! ## Rows in blocks -/

/-- Row r of nb blocks of bs rows each lies in block r / bs, between that block's first row and its last. -/
theorem row_in_block {nb bs r : Nat} (hbs : 0 < bs) (hr : r < nb * bs) :
    r / bs < nb ∧ r / bs * bs ≤ r ∧ r < r / bs * bs + bs :=
  ⟨Nat.div_lt_of_lt_mul (by rwa [Nat.mul_comm] at hr), Nat.div_mul_le_self r bs, Nat.lt_div_mul_add hbs⟩

/-- The zero offsets of a two-axis block, as the constant function. -/
theorem off2_zero : (![0, 0] : Fin 2 → Nat) = fun _ => 0 := funext fun a => by fin_cases a <;> rfl

/-! ## Bias and rectifier -/

/-- Element (p, q) of max(block + bias row, 0) against element (r, q) of max(array + bias row, 0), the bias row
    broadcast down the rows on both sides: equal when block element (p, q) is array element (r, q) and the two bias
    rows are the same. -/
theorem biasRelu_apply {n N b : Nat}
    (hc0 : (⟨2, ![n, b]⟩ : Shape).ShapeCasts ⟨2, ![n, b]⟩) (hc1 : (⟨2, ![1, b]⟩ : Shape).ShapeCasts ⟨2, ![1, b]⟩)
    (hb : (⟨2, ![1, b]⟩ : Shape).Broadcasts ⟨2, ![n, b]⟩)
    (hbd : (⟨2, ![1, b]⟩ : Shape).BroadcastsInDim ⟨2, ![N, b]⟩ ![0, 1])
    (hz : (⟨0, ![]⟩ : Shape).BroadcastsInDim ⟨2, ![N, b]⟩ ![])
    (x0 : FVec Ideal ⟨2, ![n, b]⟩ .f32) (x1 : FVec Ideal ⟨2, ![1, b]⟩ .f32)
    (a : FVec Ideal ⟨2, ![N, b]⟩ .f32) (b2 : FVec Ideal ⟨2, ![1, b]⟩ .f32)
    (p : Fin n) (r : Fin N) (q : Fin b) (h0 : x0 (ix2 p q) = a (ix2 r q)) (h1 : x1 = b2) :
    maximumf (addf (shapeCast ⟨2, ![n, b]⟩ x0 hc0) (broadcastTo ⟨2, ![n, b]⟩ (shapeCast ⟨2, ![1, b]⟩ x1 hc1) hb))
        (broadcast ⟨2, ![n, b]⟩ (Scalar.ofBits (F := Ideal) .f32 0x00000000#32)) (ix2 p q)
      = maximumf (addf a (broadcastInDim ⟨2, ![N, b]⟩ ![0, 1] hbd b2))
        (broadcastInDim ⟨2, ![N, b]⟩ ![] hz (constant (F := Ideal) ⟨0, ![]⟩ .f32 0x00000000#32)) (ix2 r q) := by
  subst h1
  rw [maximumf_apply, maximumf_apply, addf_apply, addf_apply, shapeCast_self, shapeCast_self,
    broadcastTo_apply x1 hb (ix2 p q) (ix2 (0 : Fin 1) q) (fun a => by
      match a with
      | ⟨0, _⟩ => rfl
      | ⟨1, _⟩ =>
        show q.val = if b = 1 then 0 else q.val
        have := q.isLt
        split_ifs <;> omega),
    broadcastInDim_apply ![0, 1] hbd x1 (ix2 r q) (ix2 (0 : Fin 1) q) (fun a => by
      match a with
      | ⟨0, _⟩ => rfl
      | ⟨1, _⟩ =>
        show q.val = if b = 1 then 0 else q.val
        have := q.isLt
        split_ifs <;> omega),
    broadcastInDim_apply ![] hz (constant (F := Ideal) ⟨0, ![]⟩ .f32 0x00000000#32) (ix2 r q) ix0 (fun a => a.elim0),
    h0]
  rfl

/-! ## The matrix product -/

section Plain

variable {M K N : Nat}

/-- In a rows-by-columns product the left operand is read at the result's row and the contraction position … -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ =>
    show ((DotDims.plain M K N).lhsIdx (ix2 p q) _ 0).val = p.val
    unfold DotDims.lhsIdx
    rw [dif_neg (show ¬(0 : Fin (⟨2, ![M, K]⟩ : Shape).rank) ∈ (DotDims.plain M K N).lhsBatch from List.not_mem_nil),
      dif_pos (show (0 : Fin (⟨2, ![M, K]⟩ : Shape).rank) ∈ (DotDims.plain M K N).lhsNonContracting from List.mem_singleton.mpr rfl)]
    rfl
  | ⟨1, _⟩ =>
    exact ((DotDims.plain M K N).lhsIdx_val_of_single (cl := 1) rfl (ix2 p q) _).trans hk

/-- … and the right operand at the contraction position and the result's column. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin (⟨2, ![K, N]⟩ : Shape).rank) ∈ (DotDims.plain M K N).rhsBatch from List.not_mem_nil),
      dif_pos (show (1 : Fin (⟨2, ![K, N]⟩ : Shape).rank) ∈ (DotDims.plain M K N).rhsNonContracting from List.mem_singleton.mpr rfl)]
    rfl

/-- The matrix unit's product into a zero accumulator, at element (p, q): the sum over k of left (p, k) right (k, q). -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product at element (p, q): the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  rw [Ideal.dotGeneral_apply, ← Equiv.sum_comp (contrEquiv1 (DotDims.plain M K N) K rfl rfl).symm]
  refine Finset.sum_congr rfl fun k _ => ?_
  rw [plain_lhsIdx, plain_rhsIdx]

end Plain

/-- Element (p, q) of a block [n, K] times a matrix [K, b] on the matrix unit, both narrowed on the way in and
    accumulated from zero, against element (r, q) of the host's product of an array [N, K] with a matrix: equal when
    block row p is array row r and the matrices are the same. -/
theorem matmul_eq_dotGeneral_apply {n N K b : Nat}
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hc0 : (⟨2, ![n, K]⟩ : Shape).ShapeCasts ⟨2, ![n, K]⟩) (hc1 : (⟨2, ![K, b]⟩ : Shape).ShapeCasts ⟨2, ![K, b]⟩)
    (hlt : FTy.bf16.bits < FTy.f32.bits)
    (x0 : FVec Ideal ⟨2, ![n, K]⟩ .f32) (x1 : FVec Ideal ⟨2, ![K, b]⟩ .f32)
    (h : FVec Ideal ⟨2, ![N, K]⟩ .f32) (w : FVec Ideal ⟨2, ![K, b]⟩ .f32)
    (p : Fin n) (r : Fin N) (q : Fin b) (h0 : ∀ k : Fin K, x0 (ix2 p k) = h (ix2 r k)) (h1 : x1 = w) :
    matmul dk none (truncf .bf16 (shapeCast ⟨2, ![n, K]⟩ x0 hc0) hlt) (truncf .bf16 (shapeCast ⟨2, ![K, b]⟩ x1 hc1) hlt)
        (constant ⟨2, ![n, b]⟩ .f32 0x00000000#32) (ix2 p q)
      = Host.dotGeneral dr none h w (ix2 r q) := by
  subst h1
  rw [shapeCast_self, shapeCast_self]
  show FloatOps.matmul dk none _ _ _ _ = FloatOps.dotGeneral dr none .single h x1 (ix2 r q)
  rw [matmul_plain_apply dk hdk, dotGeneral_plain_apply dr hdr]
  refine Finset.sum_congr rfl fun k _ => ?_
  rw [truncf_apply, truncf_apply, h0 k]

end Cert.LibBlocks

end
-- ==== Proof.LibDenseLayer.lean ====
/-
  ONE DENSE LAYER ON A BLOCK OF ROWS, SET BESIDE THE SAME LAYER ON THE WHOLE ARRAY, READ AT ONE ENTRY.

  A dense layer sends a row x of K numbers to the row  q ↦ (Σ_k x_k · w(k, q)) + c(0, q),  optionally followed by the
  rectifier max(·, 0). It acts on every row by itself. So if row p of a block [n, K] is row r of an array [N, K], then
  entry (p, q) of the layer applied to the block is entry (r, q) of the layer applied to the array:

  * product_entry: the matrix unit's product into a zero accumulator, both operands narrowed on the way in, against
    the host's product (a change of float format is the identity on the extended reals, and both products are the
    sum over k of left (row, k) · right (k, q), in the same order);
  * hidden_entry: product, bias row broadcast down the rows, rectifier;
  * out_entry: product and bias row only.

  The bias is a 1 x b row on both sides; the block broadcasts it as a vector broadcast, the array along its two axes.
  Generic in the extents; a program's dimension numbers enter through an equation with the plain rows-by-columns
  record.
-/
import proofs.«151515_j12128987644486_1_alg».proof.Proof.LibBlocks

noncomputable section

open scoped BigOperators

namespace Cert.LibDenseLayer

open Idealize.ShloMosaic Idealize.ShloMosaic.ValueIdx

variable {n N K b : Nat}

/-- The product: entry (p, q) of block times matrix is entry (r, q) of array times matrix, when block row p is array
    row r. -/
theorem product_entry
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hlt : FTy.bf16.bits < FTy.f32.bits)
    (X : FVec Ideal ⟨2, ![n, K]⟩ .f32) (XX : FVec Ideal ⟨2, ![N, K]⟩ .f32) (w : FVec Ideal ⟨2, ![K, b]⟩ .f32)
    (p : Fin n) (r : Fin N) (h0 : ∀ k : Fin K, X (ix2 p k) = XX (ix2 r k)) (q : Fin b) :
    matmul dk none (truncf .bf16 X hlt) (truncf .bf16 w hlt) (constant ⟨2, ![n, b]⟩ .f32 0x00000000#32) (ix2 p q)
      = Host.dotGeneral dr none XX w (ix2 r q) := by
  show FloatOps.matmul dk none _ _ _ _ = FloatOps.dotGeneral dr none .single XX w (ix2 r q)
  rw [Cert.LibBlocks.matmul_plain_apply dk hdk, Cert.LibBlocks.dotGeneral_plain_apply dr hdr]
  refine Finset.sum_congr rfl fun k _ => ?_
  rw [truncf_apply, truncf_apply, h0 k]

/-- The bias row broadcast down the rows of a block, at entry (p, q): the row's entry q. -/
theorem bias_block_entry
    (hc1 : (⟨2, ![1, b]⟩ : Shape).ShapeCasts ⟨2, ![1, b]⟩) (hb : (⟨2, ![1, b]⟩ : Shape).Broadcasts ⟨2, ![n, b]⟩)
    (c : FVec Ideal ⟨2, ![1, b]⟩ .f32) (p : Fin n) (q : Fin b) :
    broadcastTo ⟨2, ![n, b]⟩ (shapeCast ⟨2, ![1, b]⟩ c hc1) hb (ix2 p q) = c (ix2 (0 : Fin 1) q) := by
  rw [shapeCast_self]
  exact broadcastTo_apply c hb (ix2 p q) (ix2 (0 : Fin 1) q) (fun a => by
    match a with
    | ⟨0, _⟩ => rfl
    | ⟨1, _⟩ =>
      show q.val = if b = 1 then 0 else q.val
      have := q.isLt
      split_ifs <;> omega)

/-- The bias row broadcast along both axes of the array, at entry (r, q): the row's entry q. -/
theorem bias_array_entry
    (hbd : (⟨2, ![1, b]⟩ : Shape).BroadcastsInDim ⟨2, ![N, b]⟩ ![0, 1])
    (c : FVec Ideal ⟨2, ![1, b]⟩ .f32) (r : Fin N) (q : Fin b) :
    broadcastInDim ⟨2, ![N, b]⟩ ![0, 1] hbd c (ix2 r q) = c (ix2 (0 : Fin 1) q) :=
  broadcastInDim_apply ![0, 1] hbd c (ix2 r q) (ix2 (0 : Fin 1) q) (fun a => by
    match a with
    | ⟨0, _⟩ => rfl
    | ⟨1, _⟩ =>
      show q.val = if b = 1 then 0 else q.val
      have := q.isLt
      split_ifs <;> omega)

/-- Product and bias: entry (p, q) on the block is entry (r, q) on the array. -/
theorem out_entry
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hlt : FTy.bf16.bits < FTy.f32.bits)
    (hc1 : (⟨2, ![1, b]⟩ : Shape).ShapeCasts ⟨2, ![1, b]⟩) (hb : (⟨2, ![1, b]⟩ : Shape).Broadcasts ⟨2, ![n, b]⟩)
    (hbd : (⟨2, ![1, b]⟩ : Shape).BroadcastsInDim ⟨2, ![N, b]⟩ ![0, 1])
    (X : FVec Ideal ⟨2, ![n, K]⟩ .f32) (XX : FVec Ideal ⟨2, ![N, K]⟩ .f32) (w : FVec Ideal ⟨2, ![K, b]⟩ .f32)
    (c : FVec Ideal ⟨2, ![1, b]⟩ .f32)
    (p : Fin n) (r : Fin N) (h0 : ∀ k : Fin K, X (ix2 p k) = XX (ix2 r k)) (q : Fin b) :
    addf (matmul dk none (truncf .bf16 X hlt) (truncf .bf16 w hlt) (constant ⟨2, ![n, b]⟩ .f32 0x00000000#32))
        (broadcastTo ⟨2, ![n, b]⟩ (shapeCast ⟨2, ![1, b]⟩ c hc1) hb) (ix2 p q)
      = addf (Host.dotGeneral dr none XX w) (broadcastInDim ⟨2, ![N, b]⟩ ![0, 1] hbd c) (ix2 r q) := by
  rw [addf_apply, addf_apply, product_entry dk hdk dr hdr hlt X XX w p r h0 q, bias_block_entry hc1 hb c p q,
    bias_array_entry hbd c r q]

/-- Product, bias and rectifier: entry (p, q) on the block is entry (r, q) on the array. -/
theorem hidden_entry
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hlt : FTy.bf16.bits < FTy.f32.bits)
    (hc1 : (⟨2, ![1, b]⟩ : Shape).ShapeCasts ⟨2, ![1, b]⟩) (hb : (⟨2, ![1, b]⟩ : Shape).Broadcasts ⟨2, ![n, b]⟩)
    (hbd : (⟨2, ![1, b]⟩ : Shape).BroadcastsInDim ⟨2, ![N, b]⟩ ![0, 1])
    (hz : (⟨0, ![]⟩ : Shape).BroadcastsInDim ⟨2, ![N, b]⟩ ![])
    (X : FVec Ideal ⟨2, ![n, K]⟩ .f32) (XX : FVec Ideal ⟨2, ![N, K]⟩ .f32) (w : FVec Ideal ⟨2, ![K, b]⟩ .f32)
    (c : FVec Ideal ⟨2, ![1, b]⟩ .f32)
    (p : Fin n) (r : Fin N) (h0 : ∀ k : Fin K, X (ix2 p k) = XX (ix2 r k)) (q : Fin b) :
    maximumf (addf (matmul dk none (truncf .bf16 X hlt) (truncf .bf16 w hlt) (constant ⟨2, ![n, b]⟩ .f32 0x00000000#32))
          (broadcastTo ⟨2, ![n, b]⟩ (shapeCast ⟨2, ![1, b]⟩ c hc1) hb))
        (broadcast ⟨2, ![n, b]⟩ (Scalar.ofBits (F := Ideal) .f32 0x00000000#32)) (ix2 p q)
      = maximumf (addf (Host.dotGeneral dr none XX w) (broadcastInDim ⟨2, ![N, b]⟩ ![0, 1] hbd c))
        (broadcastInDim ⟨2, ![N, b]⟩ ![] hz (constant (F := Ideal) ⟨0, ![]⟩ .f32 0x00000000#32)) (ix2 r q) := by
  rw [maximumf_apply, maximumf_apply, out_entry dk hdk dr hdr hlt hc1 hb hbd X XX w c p r h0 q,
    broadcastInDim_apply ![] hz (constant (F := Ideal) ⟨0, ![]⟩ .f32 0x00000000#32) (ix2 r q) ix0 (fun a => a.elim0)]
  rfl

end Cert.LibDenseLayer

end
-- ==== Proof.LibColumn.lean ====
/-
  A column kept beside a matrix. A vector of a entries reshaped to an a x 1 column holds entry p at (p, 0): the
  column's row-major position p * 1 + 0 is the vector's index p. An a x 1 column broadcast to a x b repeats each
  row's one entry along the row: entry (p, c) of the result is entry (p, 0) of the column, since the column's
  second axis has length one and its first axis is carried over unchanged.
-/
import Idealize.ShloMosaic.Lib.Pipeline.Value
import Idealize.ShloMosaic.Lib.ValueIdx

namespace Cert.Proof.Column

open Idealize.ShloMosaic Idealize.ShloMosaic.ValueIdx

variable {α : Type}

/-- A vector of `a` entries as an `a x 1` column reads, at `(p, u)`, entry `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `a x 1` column broadcast to `a x b` reads, at `(p, c)`, row `p`'s one entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Proof.Column
-- ==== Proof.LinearEntry.lean ====
/-
  What the linear kernel's body computes, entry by entry, set beside the whole-array layer.

  The body holds a block of 5000 node rows, the 64 x 64 matrix and the block's column of dis. It stores the block times
  the matrix (both narrowed on the way into the matrix unit, which changes nothing on the extended reals, and
  accumulated from zero), and that product with each row scaled by dis · dis of the row. If row p of the block is row r
  of the node array and entry p of the column is dis(r), then entry (p, q) of the first store is entry (r, q) of the
  whole product, Σ_k x(r, k) · w(k, q), and entry (p, q) of the second is entry (r, q) of the own term
  (Σ_k x(r, k) · w(k, q)) · (dis(r) · dis(r)). The second launch's body differs by a reshape of the block to its own
  shape, which is the identity.
-/
import proofs.«151515_j12128987644486_1_alg».proof.Proof.Layer
import proofs.«151515_j12128987644486_1_alg».proof.Proof.LibDenseLayer
import proofs.«151515_j12128987644486_1_alg».proof.Proof.LibColumn
import proofs.«151515_j12128987644486_1_alg».proof.Proof.Gen.KernelIdeal.Skeleton

noncomputable section

namespace Cert.KernelIdeal.Entry

open Idealize.ShloMosaic Idealize.ShloMosaic.ValueIdx Cert.KernelIdeal Cert.KernelIdeal.Gen

/-- The block product's dimension numbers are the plain rows-by-columns ones … -/
theorem block_dims : dot_S5000x64_S64x64_S5000x64_1_0_0_1_n_n = DotDims.plain 5000 64 64 := rfl

/-- … and so are the whole product's. -/
theorem array_dims : Cert.ReferenceIdeal.dot_S100000x64_S64x64_S100000x64_1_0_0_1_n_n = DotDims.plain 100000 64 64 := rfl

/-- A column [N, 1] spread along rows of 64, after a vector [N] stood up as that column: entry (r, q) is entry r. -/
theorem spread_entry (v : Vec Ideal S100000 .f32) (r : Fin 100000) (q : Fin 64) :
    broadcastInDim S100000x64 ![0, 1] Cert.ReferenceIdeal.Facts₀.bcast_S100000x1_S100000x64_0_1
        (broadcastInDim S100000x1 ![0] Cert.ReferenceIdeal.Facts₀.bcast_S100000_S100000x1_0 v) (ix2 r q) = v (ix1 r) := by
  rw [broadcastInDim_apply ![0, 1] _ _ (ix2 r q) (ix2 r (0 : Fin 1)) (fun a => by
      match a with
      | ⟨0, _⟩ => rfl
      | ⟨1, _⟩ => rfl),
    broadcastInDim_apply ![0] _ v (ix2 r (0 : Fin 1)) (ix1 r) (fun a => by
      match a with
      | ⟨0, _⟩ => rfl)]

section
variable (x0 : Vec Ideal S5000x64 .f32) (w : Vec Ideal S64x64 .f32) (d : Vec Ideal S5000x1 .f32)
  (X : Vec Ideal S100000x64 .f32) (dis : Vec Ideal S100000 .f32) (p : Fin 5000) (r : Fin 100000)

/-- First launch, first store: the block product at (p, q) is the whole product at (r, q). -/
theorem product0 (h0 : ∀ k : Fin 64, x0 (ix2 p k) = X (ix2 r k)) (q : Fin 64) :
    k0_pay1 (F := Ideal) x0 w (ix2 p q) = Gcn.rowsTimes X w (ix2 r q) := by
  unfold k0_pay1 Gcn.rowsTimes
  exact Cert.LibDenseLayer.product_entry _ block_dims _ array_dims bitsLt_bf16_f32 x0 X w p r h0 q

/-- Second launch, first store: the same, the block first reshaped to its own shape. -/
theorem product2 (h0 : ∀ k : Fin 64, x0 (ix2 p k) = X (ix2 r k)) (q : Fin 64) :
    k2_pay1 (F := Ideal) x0 w (ix2 p q) = Gcn.rowsTimes X w (ix2 r q) := by
  unfold k2_pay1 Gcn.rowsTimes
  rw [shapeCast_self]
  exact Cert.LibDenseLayer.product_entry _ block_dims _ array_dims bitsLt_bf16_f32 x0 X w p r h0 q

/-- The scaling factor of a block row: the column's entry squared, spread along the row. -/
theorem scale_entry (hd : d (ix2 p (0 : Fin 1)) = dis (ix1 r)) (q : Fin 64) :
    (broadcastTo S5000x64 (mulf (F := Ideal) (shapeCast S5000x1 d shapeCasts_S5000x1_S5000x1) (shapeCast S5000x1 d shapeCasts_S5000x1_S5000x1))
        broadcasts_S5000x1_S5000x64 : FVec Ideal S5000x64 .f32) (ix2 p q) = (mulf (F := Ideal) dis dis : FVec Ideal S100000 .f32) (ix1 r) := by
  rw [Cert.Proof.Column.broadcastTo_a1_ab_apply _ broadcasts_S5000x1_S5000x64 p q, mulf_apply, mulf_apply, shapeCast_self, hd]

/-- First launch, second store: the own term at (r, q). -/
theorem own0 (h0 : ∀ k : Fin 64, x0 (ix2 p k) = X (ix2 r k)) (hd : d (ix2 p (0 : Fin 1)) = dis (ix1 r)) (q : Fin 64) :
    k0_pay2 (F := Ideal) x0 w d (ix2 p q) = Gcn.selfLoop (Gcn.rowsTimes X w) dis (ix2 r q) := by
  unfold k0_pay2 Gcn.selfLoop
  rw [mulf_apply, mulf_apply, product0 x0 w X p r h0 q, scale_entry d dis p r hd q, spread_entry]

/-- Second launch, second store: the own term at (r, q). -/
theorem own2 (h0 : ∀ k : Fin 64, x0 (ix2 p k) = X (ix2 r k)) (hd : d (ix2 p (0 : Fin 1)) = dis (ix1 r)) (q : Fin 64) :
    k2_pay2 (F := Ideal) x0 w d (ix2 p q) = Gcn.selfLoop (Gcn.rowsTimes X w) dis (ix2 r q) := by
  unfold k2_pay2 Gcn.selfLoop
  rw [mulf_apply, mulf_apply, product2 x0 w X p r h0 q, scale_entry d dis p r hd q, spread_entry]

end

end Cert.KernelIdeal.Entry

end
-- ==== Proof.Lin0.lean ====
/-
  The first layer's linear launch, from blocks to arrays.

  The grid has 20 points; point t holds rows 5000 t … 5000 t + 4999 of the node array and of the dis column, the whole
  64 x 64 matrix, and writes the same rows of two result arrays. So row p of point t's block is array row 5000 t + p,
  every array row r lies in point r / 5000's block, and the two arrays end, whatever they held before, at the whole
  product of the node rows with the matrix and at that product with row r scaled by dis(r) · dis(r): entry by entry
  what the body stores (LinearEntry.lean). Stated at any contents the launch is entered with.
-/
import proofs.«151515_j12128987644486_1_alg».proof.Proof.LinearEntry
import proofs.«151515_j12128987644486_1_alg».proof.Proof.Gen.KernelIdeal.Frame
import Idealize.ShloMosaic.Lib.Pipeline.Value

set_option maxRecDepth 16384

noncomputable section

namespace Cert.KernelIdeal.Lin0

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem offsets_zero : (![0, 0] : Fin 2 → Nat) = fun _ => 0 := funext fun a => by fin_cases a <;> rfl

/-- The index maps over the grid: the four row windows sit at block row t, the matrix at its one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- A point's number is below 20. -/
theorem point_lt (t : Fin cfg0.N) : t.val < 20 := t.isLt

/-- Row p of point t's block is a row of the array. -/
theorem row_lt (t : Fin cfg0.N) (p : Fin 5000) : t.val * 5000 + p.val < 100000 := by
  have := point_lt t; have := p.isLt; omega

/-- The blocks and arrays by their literal types. -/
abbrev xblk (c : Dev nD) (t : Fin cfg0.N) : Vec Ideal S5000x64 .f32 := iblk0 V c 0 t
abbrev wblk (c : Dev nD) (t : Fin cfg0.N) : Vec Ideal S64x64 .f32 := iblk0 V c 1 t
abbrev dblk (c : Dev nD) (t : Fin cfg0.N) : Vec Ideal S5000x1 .f32 := iblk0 V c 2 t
abbrev xarr (c : Dev nD) : Vec Ideal S100000x64 .f32 := V c main_arg0
abbrev warr (c : Dev nD) : Vec Ideal S64x64 .f32 := V c main_arg2
abbrev darr (c : Dev nD) : Vec Ideal S100000x1 .f32 := V c main_v16

/-- Entry (p, k) of point t's block of node rows is entry (5000 t + p, k) of the array. -/
theorem xblk_entry (c : Dev nD) (t : Fin cfg0.N) (p : Fin 5000) (k : Fin 64) :
    xblk V c t (ix2 p k) = xarr V c (ix2 ⟨t.val * 5000 + p.val, row_lt t p⟩ k) := by
  show V c main_arg0 (((cfg0.win 0).blk t).view.emb (ix2 p k)) = V c main_arg0 (ix2 ⟨t.val * 5000 + p.val, row_lt t p⟩ k)
  refine congrArg _ (funext fun a => Fin.ext ?_)
  obtain ⟨e0, e1, -⟩ := idx_facts t
  match a with
  | ⟨0, _⟩ => show win0_0.index t (0 : Fin 2) * 5000 + 1 * p.val = t.val * 5000 + p.val; rw [e0]; omega
  | ⟨1, _⟩ => show win0_0.index t (1 : Fin 2) * 64 + 1 * k.val = k.val; rw [e1]; omega

/-- Every point's matrix block is the whole matrix. -/
theorem wblk_eq (c : Dev nD) (t : Fin cfg0.N) : wblk V c t = warr V c := by
  funext y
  show V c main_arg2 (((cfg0.win 1).blk t).view.emb y) = V c main_arg2 y
  refine congrArg _ (funext fun a => Fin.ext ?_)
  obtain ⟨-, -, e2, e3, -⟩ := idx_facts t
  match a with
  | ⟨0, _⟩ => show win0_1.index t (0 : Fin 2) * 64 + 1 * (y 0).val = (y 0).val; rw [e2]; omega
  | ⟨1, _⟩ => show win0_1.index t (1 : Fin 2) * 64 + 1 * (y 1).val = (y 1).val; rw [e3]; omega

/-- Entry (p, 0) of point t's block of the dis column is entry (5000 t + p, 0) of the column. -/
theorem dblk_entry (c : Dev nD) (t : Fin cfg0.N) (p : Fin 5000) :
    dblk V c t (ix2 p (0 : Fin 1)) = darr V c (ix2 ⟨t.val * 5000 + p.val, row_lt t p⟩ (0 : Fin 1)) := by
  show V c main_v16 (((cfg0.win 2).blk t).view.emb (ix2 p (0 : Fin 1))) = V c main_v16 (ix2 ⟨t.val * 5000 + p.val, row_lt t p⟩ (0 : Fin 1))
  refine congrArg _ (funext fun a => Fin.ext ?_)
  obtain ⟨-, -, -, -, e4, e5, -⟩ := idx_facts t
  match a with
  | ⟨0, _⟩ => show win0_2.index t (0 : Fin 2) * 5000 + 1 * p.val = t.val * 5000 + p.val; rw [e4]; omega
  | ⟨1, _⟩ => show win0_2.index t (1 : Fin 2) * 1 + 1 * 0 = 0; rw [e5]

/-- Where entry (p, q) of point t's block of the first result array sits in the array. -/
theorem hrow (t : Fin cfg0.N) (p : Fin 5000) (q : Fin 64) :
    ((cfg0.win 3).blk t).view.emb (ix2 p q) = ix2 ⟨t.val * 5000 + p.val, row_lt t p⟩ q := by
  refine funext fun a => Fin.ext ?_
  obtain ⟨-, -, -, -, -, -, e6, e7, -⟩ := idx_facts t
  match a with
  | ⟨0, _⟩ => show win0_3.index t (0 : Fin 2) * 5000 + 1 * p.val = t.val * 5000 + p.val; rw [e6]; omega
  | ⟨1, _⟩ => show win0_3.index t (1 : Fin 2) * 64 + 1 * q.val = q.val; rw [e7]; omega

/-- The same for the second result array. -/
theorem srow (t : Fin cfg0.N) (p : Fin 5000) (q : Fin 64) :
    ((cfg0.win 4).blk t).view.emb (ix2 p q) = ix2 ⟨t.val * 5000 + p.val, row_lt t p⟩ q := by
  refine funext fun a => Fin.ext ?_
  obtain ⟨-, -, -, -, -, -, -, -, e8, e9⟩ := idx_facts t
  match a with
  | ⟨0, _⟩ => show win0_4.index t (0 : Fin 2) * 5000 + 1 * p.val = t.val * 5000 + p.val; rw [e8]; omega
  | ⟨1, _⟩ => show win0_4.index t (1 : Fin 2) * 64 + 1 * q.val = q.val; rw [e9]; omega

/-- What point t writes back to the first result array is block t of the whole product. -/
theorem flushed_h (c : Dev nD) (t : Fin cfg0.N) :
    (dat0 V c).flushed 3 t = ((cfg0.win 3).blk t).view.read (Elt Ideal) (Gcn.rowsTimes (xarr V c) (warr V c)) := by
  show (cfg0.win 3).cut (grid0.coords t) ((dat0 V c).after 3 t) = _
  rw [after0_3]
  unfold out0_3
  rw [View.canon_unit_zero offsets_zero]
  simp only [View.ld_unit_zero (S := S5000x64) offsets_zero, View.ld_unit_zero (S := S64x64) offsets_zero]
  funext j
  show k0_pay1 (F := Ideal) (xblk V c t) (wblk V c t) j = Gcn.rowsTimes (xarr V c) (warr V c) (((cfg0.win 3).blk t).view.emb j)
  obtain ⟨p, q, rfl⟩ : ∃ (p : Fin 5000) (q : Fin 64), j = ix2 p q := ⟨j 0, j 1, eq_ix2 j⟩
  rw [hrow t p q, wblk_eq V c t]
  exact Entry.product0 (xblk V c t) (warr V c) (xarr V c) p ⟨t.val * 5000 + p.val, row_lt t p⟩ (fun k => xblk_entry V c t p k) q

/-- What point t writes back to the second result array is block t of the own term, dis the vector the column is. -/
theorem flushed_s (c : Dev nD) (dis : Vec Ideal S100000 .f32)
    (hd : darr V c = shapeCast S100000x1 dis shapeCasts_S100000_S100000x1) (t : Fin cfg0.N) :
    (dat0 V c).flushed 4 t
      = ((cfg0.win 4).blk t).view.read (Elt Ideal) (Gcn.selfLoop (Gcn.rowsTimes (xarr V c) (warr V c)) dis) := by
  show (cfg0.win 4).cut (grid0.coords t) ((dat0 V c).after 4 t) = _
  rw [after0_4]
  unfold out0_4
  rw [View.canon_unit_zero offsets_zero]
  simp only [View.ld_unit_zero (S := S5000x64) offsets_zero, View.ld_unit_zero (S := S64x64) offsets_zero,
    View.ld_unit_zero (S := S5000x1) offsets_zero]
  funext j
  show k0_pay2 (F := Ideal) (xblk V c t) (wblk V c t) (dblk V c t) j
    = Gcn.selfLoop (Gcn.rowsTimes (xarr V c) (warr V c)) dis (((cfg0.win 4).blk t).view.emb j)
  obtain ⟨p, q, rfl⟩ : ∃ (p : Fin 5000) (q : Fin 64), j = ix2 p q := ⟨j 0, j 1, eq_ix2 j⟩
  rw [srow t p q, wblk_eq V c t]
  refine Entry.own0 (xblk V c t) (warr V c) (dblk V c t) (xarr V c) dis p ⟨t.val * 5000 + p.val, row_lt t p⟩
    (fun k => xblk_entry V c t p k) ?_ q
  rw [dblk_entry V c t p, hd]
  exact Cert.Proof.Column.shapeCast_a_a1_apply dis shapeCasts_S100000_S100000x1 ⟨t.val * 5000 + p.val, row_lt t p⟩ (0 : Fin 1)

/-- An index of a result array is in point t's block iff its row and column are in the block's ranges. -/
theorem mem_blk3 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v17_0).slice (win0_3.rect t)).set ↔ _
  rw [View.set_slice_whole, Rect.mem_set_unit]
  exact Iff.rfl

theorem mem_blk4 (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v17_1).slice (win0_4.rect t)).set ↔ _
  rw [View.set_slice_whole, Rect.mem_set_unit]
  exact Iff.rfl

/-- The point whose block holds row r. -/
def pointOf (i : S100000x64.Idx) : Fin cfg0.N := ⟨(i 0).val / 5000, by
  have h : (i 0).val < 100000 := (i 0).isLt
  show (i 0).val / 5000 < 20
  omega⟩

/-- Every index of the first result array is in the block of the point its row belongs to, and that point writes back. -/
theorem cover3 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  refine ⟨pointOf i, flush0_3 _, ?_⟩
  rw [mem_blk3]
  obtain ⟨-, -, -, -, -, -, e6, e7, -⟩ := idx_facts (pointOf i)
  have hv : (pointOf i).val = (i 0).val / 5000 := rfl
  intro a
  match a with
  | ⟨0, _⟩ =>
    show win0_3.index (pointOf i) (0 : Fin 2) * 5000 ≤ (i 0).val ∧ (i 0).val < win0_3.index (pointOf i) (0 : Fin 2) * 5000 + 5000
    rw [e6, hv]; omega
  | ⟨1, _⟩ =>
    show win0_3.index (pointOf i) (1 : Fin 2) * 64 ≤ (i 1).val ∧ (i 1).val < win0_3.index (pointOf i) (1 : Fin 2) * 64 + 64
    rw [e7]; omega

theorem cover4 (i : S100000x64.Idx) :
    ∃ t : Fin cfg0.N, (cfg0.win 4).flush t = true ∧ i ∈ ((cfg0.win 4).blk t).view.set := by
  have hi0 : (i 0).val < 100000 := (i 0).isLt
  have hi1 : (i 1).val < 64 := (i 1).isLt
  refine ⟨pointOf i, flush0_4 _, ?_⟩
  rw [mem_blk4]
  obtain ⟨-, -, -, -, -, -, -, -, e8, e9⟩ := idx_facts (pointOf i)
  have hv : (pointOf i).val = (i 0).val / 5000 := rfl
  intro a
  match a with
  | ⟨0, _⟩ =>
    show win0_4.index (pointOf i) (0 : Fin 2) * 5000 ≤ (i 0).val ∧ (i 0).val < win0_4.index (pointOf i) (0 : Fin 2) * 5000 + 5000
    rw [e8, hv]; omega
  | ⟨1, _⟩ =>
    show win0_4.index (pointOf i) (1 : Fin 2) * 64 ≤ (i 1).val ∧ (i 1).val < win0_4.index (pointOf i) (1 : Fin 2) * 64 + 64
    rw [e9]; omega

/-- THE FIRST RESULT ARRAY after the launch: the node rows times the matrix. -/
theorem final_h (c : Dev nD) : (dat0 V c).arrAt 3 cfg0.N = Gcn.rowsTimes (xarr V c) (warr V c) :=
  (dat0 V c).arrAt_eq_of_cover 3 _ (fun t _ => flushed_h V c t) cover3

/-- THE SECOND RESULT ARRAY after the launch: that product, row r scaled by dis(r) · dis(r). -/
theorem final_s (c : Dev nD) (dis : Vec Ideal S100000 .f32)
    (hd : darr V c = shapeCast S100000x1 dis shapeCasts_S100000_S100000x1) :
    (dat0 V c).arrAt 4 cfg0.N = Gcn.selfLoop (Gcn.rowsTimes (xarr V c) (warr V c)) dis :=
  (dat0 V c).arrAt_eq_of_cover 4 _ (fun t _ => flushed_s V c dis hd t) cover4

end Cert.KernelIdeal.Lin0

end
-- ==== Proof.Lin2.lean ====
/-
  The second layer's linear launch, from blocks to arrays.

  The grid has 20 points; point t holds rows 5000 t … 5000 t + 4999 of the node array and of the dis column, the whole
  64 x 64 matrix, and writes the same rows of two result arrays. So row p of point t's block is array row 5000 t + p,
  every array row r lies in point r / 5000's block, and the two arrays end, whatever they held before, at the whole
  product of the node rows with the matrix and at that product with row r scaled by dis(r) · dis(r): entry by entry
  what the body stores (LinearEntry.lean). Stated at any contents the launch is entered with.
-/
import proofs.«151515_j12128987644486_1_alg».proof.Proof.LinearEntry
import proofs.«151515_j12128987644486_1_alg».proof.Proof.Gen.KernelIdeal.Frame
import Idealize.ShloMosaic.Lib.Pipeline.Value

set_option maxRecDepth 16384

noncomputable section

namespace Cert.KernelIdeal.Lin2

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem offsets_zero : (![0, 0] : Fin 2 → Nat) = fun _ => 0 := funext fun a => by fin_cases a <;> rfl

/-- The index maps over the grid: the four row windows sit at block row t, the matrix at its one block. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- A point's number is below 20. -/
theorem point_lt (t : Fin cfg2.N) : t.val < 20 := t.isLt

/-- Row p of point t's block is a row of the array. -/
theorem row_lt (t : Fin cfg2.N) (p : Fin 5000) : t.val * 5000 + p.val < 100000 := by
  have := point_lt t; have := p.isLt; omega

/-- The blocks and arrays by their literal types. -/
abbrev xblk (c : Dev nD) (t : Fin cfg2.N) : Vec Ideal S5000x64 .f32 := iblk2 V c 0 t
abbrev wblk (c : Dev nD) (t : Fin cfg2.N) : Vec Ideal S64x64 .f32 := iblk2 V c 1 t
abbrev dblk (c : Dev nD) (t : Fin cfg2.N) : Vec Ideal S5000x1 .f32 := iblk2 V c 2 t
abbrev xarr (c : Dev nD) : Vec Ideal S100000x64 .f32 := V c main_v47
abbrev warr (c : Dev nD) : Vec Ideal S64x64 .f32 := V c main_arg4
abbrev darr (c : Dev nD) : Vec Ideal S100000x1 .f32 := V c main_v16

/-- Entry (p, k) of point t's block of node rows is entry (5000 t + p, k) of the array. -/
theorem xblk_entry (c : Dev nD) (t : Fin cfg2.N) (p : Fin 5000) (k : Fin 64) :
    xblk V c t (ix2 p k) = xarr V c (ix2 ⟨t.val * 5000 + p.val, row_lt t p⟩ k) := by
  show V c main_v47 (((cfg2.win 0).blk t).view.emb (ix2 p k)) = V c main_v47 (ix2 ⟨t.val * 5000 + p.val, row_lt t p⟩ k)
  refine congrArg _ (funext fun a => Fin.ext ?_)
  obtain ⟨e0, e1, -⟩ := idx_facts t
  match a with
  | ⟨0, _⟩ => show win2_0.index t (0 : Fin 2) * 5000 + 1 * p.val = t.val * 5000 + p.val; rw [e0]; omega
  | ⟨1, _⟩ => show win2_0.index t (1 : Fin 2) * 64 + 1 * k.val = k.val; rw [e1]; omega

/-- Every point's matrix block is the whole matrix. -/
theorem wblk_eq (c : Dev nD) (t : Fin cfg2.N) : wblk V c t = warr V c := by
  funext y
  show V c main_arg4 (((cfg2.win 1).blk t).view.emb y) = V c main_arg4 y
  refine congrArg _ (funext fun a => Fin.ext ?_)
  obtain ⟨-, -, e2, e3, -⟩ := idx_facts t
  match a with
  | ⟨0, _⟩ => show win2_1.index t (0 : Fin 2) * 64 + 1 * (y 0).val = (y 0).val; rw [e2]; omega
  | ⟨1, _⟩ => show win2_1.index t (1 : Fin 2) * 64 + 1 * (y 1).val = (y 1).val; rw [e3]; omega

/-- Entry (p, 0) of point t's block of the dis column is entry (5000 t + p, 0) of the column. -/
theorem dblk_entry (c : Dev nD) (t : Fin cfg2.N) (p : Fin 5000) :
    dblk V c t (ix2 p (0 : Fin 1)) = darr V c (ix2 ⟨t.val * 5000 + p.val, row_lt t p⟩ (0 : Fin 1)) := by
  show V c main_v16 (((cfg2.win 2).blk t).view.emb (ix2 p (0 : Fin 1))) = V c main_v16 (ix2 ⟨t.val * 5000 + p.val, row_lt t p⟩ (0 : Fin 1))
  refine congrArg _ (funext fun a => Fin.ext ?_)
  obtain ⟨-, -, -, -, e4, e5, -⟩ := idx_facts t
  match a with
  | ⟨0, _⟩ => show win2_2.index t (0 : Fin 2) * 5000 + 1 * p.val = t.val * 5000 + p.val; rw [e4]; omega
  | ⟨1, _⟩ => show win2_2.index t (1 : Fin 2) * 1 + 1 * 0 = 0; rw [e5]

/-- Where entry (p, q) of point t's block of the first result array sits in the array. -/
theorem hrow (t : Fin cfg2.N) (p : Fin 5000) (q : Fin 64) :
    ((cfg2.win 3).blk t).view.emb (ix2 p q) = ix2 ⟨t.val * 5000 + p.val, row_lt t p⟩ q := by
  refine funext fun a => Fin.ext ?_
  obtain ⟨-, -, -, -, -, -, e6, e7, -⟩ := idx_facts t
  match a with
  | ⟨0, _⟩ => show win2_3.index t (0 : Fin 2) * 5000 + 1 * p.val = t.val * 5000 + p.val; rw [e6]; omega
  | ⟨1, _⟩ => show win2_3.index t (1 : Fin 2) * 64 + 1 * q.val = q.val; rw [e7]; omega

/-- The same for the second result array. -/
theorem srow (t : Fin cfg2.N) (p : Fin 5000) (q : Fin 64) :
    ((cfg2.win 4).blk t).view.emb (ix2 p q) = ix2 ⟨t.val * 5000 + p.val, row_lt t p⟩ q := by
  refine funext fun a => Fin.ext ?_
  obtain ⟨-, -, -, -, -, -, -, -, e8, e9⟩ := idx_facts t
  match a with
  | ⟨0, _⟩ => show win2_4.index t (0 : Fin 2) * 5000 + 1 * p.val = t.val * 5000 + p.val; rw [e8]; omega
  | ⟨1, _⟩ => show win2_4.index t (1 : Fin 2) * 64 + 1 * q.val = q.val; rw [e9]; omega

/-- What point t writes back to the first result array is block t of the whole product. -/
theorem flushed_h (c : Dev nD) (t : Fin cfg2.N) :
    (dat2 V c).flushed 3 t = ((cfg2.win 3).blk t).view.read (Elt Ideal) (Gcn.rowsTimes (xarr V c) (warr V c)) := by
  show (cfg2.win 3).cut (grid2.coords t) ((dat2 V c).after 3 t) = _
  rw [after2_3]
  unfold out2_3
  rw [View.canon_unit_zero offsets_zero]
  simp only [View.ld_unit_zero (S := S5000x64) offsets_zero, View.ld_unit_zero (S := S64x64) offsets_zero]
  funext j
  show k2_pay1 (F := Ideal) (xblk V c t) (wblk V c t) j = Gcn.rowsTimes (xarr V c) (warr V c) (((cfg2.win 3).blk t).view.emb j)
  obtain ⟨p, q, rfl⟩ : ∃ (p : Fin 5000) (q : Fin 64), j = ix2 p q := ⟨j 0, j 1, eq_ix2 j⟩
  rw [hrow t p q, wblk_eq V c t]
  exact Entry.product2 (xblk V c t) (warr V c) (xarr V c) p ⟨t.val * 5000 + p.val, row_lt t p⟩ (fun k => xblk_entry V c t p k) q

/-- What point t writes back to the second result array is block t of the own term, dis the vector the column is. -/
theorem flushed_s (c : Dev nD) (dis : Vec Ideal S100000 .f32)
    (hd : darr V c = shapeCast S100000x1 dis shapeCasts_S100000_S100000x1) (t : Fin cfg2.N) :
    (dat2 V c).flushed 4 t
      = ((cfg2.win 4).blk t).view.read (Elt Ideal) (Gcn.selfLoop (Gcn.rowsTimes (xarr V c) (warr V c)) dis) := by
  show (cfg2.win 4).cut (grid2.coords t) ((dat2 V c).after 4 t) = _
  rw [after2_4]
  unfold out2_4
  rw [View.canon_unit_zero offsets_zero]
  simp only [View.ld_unit_zero (S := S5000x64) offsets_zero, View.ld_unit_zero (S := S64x64) offsets_zero,
    View.ld_unit_zero (S := S5000x1) offsets_zero]
  funext j
  show k2_pay2 (F := Ideal) (xblk V c t) (wblk V c t) (dblk V c t) j
    = Gcn.selfLoop (Gcn.rowsTimes (xarr V c) (warr V c)) dis (((cfg2.win 4).blk t).view.emb j)
  obtain ⟨p, q, rfl⟩ : ∃ (p : Fin 5000) (q : Fin 64), j = ix2 p q := ⟨j 0, j 1, eq_ix2 j⟩
  rw [srow t p q, wblk_eq V c t]
  refine Entry.own2 (xblk V c t) (warr V c) (dblk V c t) (xarr V c) dis p ⟨t.val * 5000 + p.val, row_lt t p⟩
    (fun k => xblk_entry V c t p k) ?_ q
  rw [dblk_entry V c t p, hd]
  exact Cert.Proof.Column.shapeCast_a_a1_apply dis shapeCasts_S100000_S100000x1 ⟨t.val * 5000 + p.val, row_lt t p⟩ (0 : Fin 1)

/-- An index of a result array is in point t's block iff its row and column are in the block's ranges. -/
theorem mem_blk3 (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v48_0).slice (win2_3.rect t)).set ↔ _
  rw [View.set_slice_whole, Rect.mem_set_unit]
  exact Iff.rfl

theorem mem_blk4 (t : Fin cfg2.N) (i : S100000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v48_1).slice (win2_4.rect t)).set ↔ _
  rw [View.set_slice_whole, Rect.mem_set_unit]
  exact Iff.rfl

/-- The point whose block holds row r. -/
def pointOf (i : S100000x64.Idx) : Fin cfg2.N := ⟨(i 0).val / 5000, by
  have h : (i 0).val < 100000 := (i 0).isLt
  show (i 0).val / 5000 < 20
  omega⟩

/-- Every index of the first result array is in the block of the point its row belongs to, and that point writes back. -/
theorem cover3 (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  refine ⟨pointOf i, flush2_3 _, ?_⟩
  rw [mem_blk3]
  obtain ⟨-, -, -, -, -, -, e6, e7, -⟩ := idx_facts (pointOf i)
  have hv : (pointOf i).val = (i 0).val / 5000 := rfl
  intro a
  match a with
  | ⟨0, _⟩ =>
    show win2_3.index (pointOf i) (0 : Fin 2) * 5000 ≤ (i 0).val ∧ (i 0).val < win2_3.index (pointOf i) (0 : Fin 2) * 5000 + 5000
    rw [e6, hv]; omega
  | ⟨1, _⟩ =>
    show win2_3.index (pointOf i) (1 : Fin 2) * 64 ≤ (i 1).val ∧ (i 1).val < win2_3.index (pointOf i) (1 : Fin 2) * 64 + 64
    rw [e7]; omega

theorem cover4 (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  refine ⟨pointOf i, flush2_4 _, ?_⟩
  rw [mem_blk4]
  obtain ⟨-, -, -, -, -, -, -, -, e8, e9⟩ := idx_facts (pointOf i)
  have hv : (pointOf i).val = (i 0).val / 5000 := rfl
  intro a
  match a with
  | ⟨0, _⟩ =>
    show win2_4.index (pointOf i) (0 : Fin 2) * 5000 ≤ (i 0).val ∧ (i 0).val < win2_4.index (pointOf i) (0 : Fin 2) * 5000 + 5000
    rw [e8, hv]; omega
  | ⟨1, _⟩ =>
    show win2_4.index (pointOf i) (1 : Fin 2) * 64 ≤ (i 1).val ∧ (i 1).val < win2_4.index (pointOf i) (1 : Fin 2) * 64 + 64
    rw [e9]; omega

/-- THE FIRST RESULT ARRAY after the launch: the node rows times the matrix. -/
theorem final_h (c : Dev nD) : (dat2 V c).arrAt 3 cfg2.N = Gcn.rowsTimes (xarr V c) (warr V c) :=
  (dat2 V c).arrAt_eq_of_cover 3 _ (fun t _ => flushed_h V c t) cover3

/-- THE SECOND RESULT ARRAY after the launch: that product, row r scaled by dis(r) · dis(r). -/
theorem final_s (c : Dev nD) (dis : Vec Ideal S100000 .f32)
    (hd : darr V c = shapeCast S100000x1 dis shapeCasts_S100000_S100000x1) :
    (dat2 V c).arrAt 4 cfg2.N = Gcn.selfLoop (Gcn.rowsTimes (xarr V c) (warr V c)) dis :=
  (dat2 V c).arrAt_eq_of_cover 4 _ (fun t _ => flushed_s V c dis hd t) cover4

end Cert.KernelIdeal.Lin2

end
-- ==== Proof.FinalEntry.lean ====
/-
  What the combining kernel's body computes, entry by entry, set beside the whole-array combination.

  The body holds a block of 5000 rows of the neighbour sums, the same block of the own terms and the bias as a 1 x 64
  row; it stores  sums + own + bias  (the first layer's launch then takes max(·, 0)). If entry (p, q) of each block is
  entry (r, q) of its array and the row's entry q is the bias vector's entry q, then the stored entry (p, q) is entry
  (r, q) of the whole-array expression: both are  A(r, q) + S(r, q) + b(q),  added in that order.
-/
import proofs.«151515_j12128987644486_1_alg».proof.Proof.Layer
import proofs.«151515_j12128987644486_1_alg».proof.Proof.Gen.KernelIdeal.Skeleton
import Idealize.ShloMosaic.Lib.ValueIdx
import Idealize.ShloMosaic.Lib.Pipeline.Value

noncomputable section

namespace Cert.KernelIdeal.Entry

open Idealize.ShloMosaic Idealize.ShloMosaic.ValueIdx Cert.KernelIdeal Cert.KernelIdeal.Gen

/-- The 1 x 64 row spread down a block's 5000 rows: entry (p, q) is the row's entry q. -/
theorem bias_block (bb : Vec Ideal S1x64 .f32) (p : Fin 5000) (q : Fin 64) :
    broadcastTo S5000x64 bb broadcasts_S1x64_S5000x64 (ix2 p q) = bb (ix2 (0 : Fin 1) q) :=
  broadcastTo_apply bb _ (ix2 p q) (ix2 (0 : Fin 1) q) (fun a => by
    match a with
    | ⟨0, _⟩ => rfl
    | ⟨1, _⟩ => rfl)

/-- The bias vector under every node: entry (r, q) is the vector's entry q. -/
theorem bias_array (b : Vec Ideal S64 .f32) (r : Fin 100000) (q : Fin 64) : Gcn.biasRows b (ix2 r q) = b (ix1 q) := by
  unfold Gcn.biasRows
  rw [broadcastInDim_apply ![0, 1] _ _ (ix2 r q) (ix2 (0 : Fin 1) q) (fun a => by
      match a with
      | ⟨0, _⟩ => rfl
      | ⟨1, _⟩ => rfl),
    broadcastInDim_apply ![1] _ b (ix2 (0 : Fin 1) q) (ix1 q) (fun a => by
      match a with
      | ⟨0, _⟩ => rfl)]

/-- The whole-array zero the rectifier compares with, at an entry. -/
theorem zero_array (r : Fin 100000) (q : Fin 64) :
    broadcastInDim S100000x64 ![] Cert.ReferenceIdeal.Facts₀.bcast_S_S100000x64 (constant (F := Ideal) S_ .f32 0x00000000#32) (ix2 r q)
      = constant (F := Ideal) S_ .f32 0x00000000#32 ix0 :=
  broadcastInDim_apply ![] _ _ (ix2 r q) ix0 (fun a => a.elim0)

/-- The bias vector laid as a 1 x 64 row: entry (0, q) is entry q. -/
theorem row_entry (b : Vec Ideal S64 .f32) (q : Fin 64) :
    shapeCast S1x64 b shapeCasts_S64_S1x64 (ix2 (0 : Fin 1) q) = b (ix1 q) :=
  shapeCast_apply b _ (ix2 (0 : Fin 1) q) (ix1 q) (by
    rw [Shape.rowMajor_val_two, Shape.rowMajor_val_one]
    show q.val = 0 * 64 + q.val
    omega)

/-- What the first layer's combining launch leaves, as a whole-array expression: max(sums + own + bias, 0). -/
def post1 (A S : Vec Ideal S100000x64 .f32) (b : Vec Ideal S64 .f32) : Vec Ideal S100000x64 .f32 :=
  Gcn.rectify (addf (addf A S) (Gcn.biasRows b))

/-- What the second layer's combining launch leaves: sums + own + bias. -/
def post3 (A S : Vec Ideal S100000x64 .f32) (b : Vec Ideal S64 .f32) : Vec Ideal S100000x64 .f32 :=
  addf (addf A S) (Gcn.biasRows b)

section
variable (bb : Vec Ideal S1x64 .f32) (a s : Vec Ideal S5000x64 .f32) (A S : Vec Ideal S100000x64 .f32)
  (b : Vec Ideal S64 .f32) (p : Fin 5000) (r : Fin 100000) (q : Fin 64)

/-- Second layer's launch: sums + own + bias at (r, q). -/
theorem entry3 (ha : a (ix2 p q) = A (ix2 r q)) (hs : s (ix2 p q) = S (ix2 r q)) (hb : bb (ix2 (0 : Fin 1) q) = b (ix1 q)) :
    k3_pay1 (F := Ideal) bb a s (ix2 p q) = post3 A S b (ix2 r q) := by
  dsimp only [k3_pay1, post3]
  simp only [shapeCast_self]
  rw [addf_apply, addf_apply, addf_apply, addf_apply, bias_block, bias_array, ha, hs, hb]

/-- First layer's launch: max(sums + own + bias, 0) at (r, q). -/
theorem entry1 (ha : a (ix2 p q) = A (ix2 r q)) (hs : s (ix2 p q) = S (ix2 r q)) (hb : bb (ix2 (0 : Fin 1) q) = b (ix1 q)) :
    k1_pay1 (F := Ideal) bb a s (ix2 p q) = post1 A S b (ix2 r q) := by
  dsimp only [k1_pay1, post1, Gcn.rectify]
  simp only [shapeCast_self]
  rw [maximumf_apply, maximumf_apply, addf_apply, addf_apply, addf_apply, addf_apply, bias_block, bias_array, ha, hs, hb,
    zero_array]
  rfl

end

end Cert.KernelIdeal.Entry

end
-- ==== Proof.Fin1.lean ====
/-
  A combining launch, from blocks to the array.

  The grid has 20 points; point t holds rows 5000 t … 5000 t + 4999 of the neighbour sums and of the own terms, the
  whole 1 x 64 bias row, and writes the same rows of the result array. So row p of point t's block is array row
  5000 t + p, every array row r lies in point r / 5000's block, and the result array ends, whatever it held before,
  at the layer's combination of the two arrays and the bias: entry by entry what the body stores (FinalEntry.lean).
  Stated at any contents the launch is entered with.
-/
import proofs.«151515_j12128987644486_1_alg».proof.Proof.FinalEntry
import proofs.«151515_j12128987644486_1_alg».proof.Proof.Gen.KernelIdeal.Frame
import Idealize.ShloMosaic.Lib.Pipeline.Value

set_option maxRecDepth 16384

noncomputable section

namespace Cert.KernelIdeal.Fin1

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem offsets_zero : (![0, 0] : Fin 2 → Nat) = fun _ => 0 := funext fun a => by fin_cases a <;> rfl

/-- The index maps over the grid: the three row windows sit at block row t, the bias row at its one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- A point's number is below 20. -/
theorem point_lt (t : Fin cfg1.N) : t.val < 20 := t.isLt

/-- Row p of point t's block is a row of the array. -/
theorem row_lt (t : Fin cfg1.N) (p : Fin 5000) : t.val * 5000 + p.val < 100000 := by
  have := point_lt t; have := p.isLt; omega

/-- The blocks and arrays by their literal types. -/
abbrev ablk (c : Dev nD) (t : Fin cfg1.N) : Vec Ideal S5000x64 .f32 := iblk1 V c 0 t
abbrev sblk (c : Dev nD) (t : Fin cfg1.N) : Vec Ideal S5000x64 .f32 := iblk1 V c 1 t
abbrev bblk (c : Dev nD) (t : Fin cfg1.N) : Vec Ideal S1x64 .f32 := iblk1 V c 2 t
abbrev aarr (c : Dev nD) : Vec Ideal S100000x64 .f32 := V c main_v45
abbrev sarr (c : Dev nD) : Vec Ideal S100000x64 .f32 := V c main_v17_1
abbrev barr (c : Dev nD) : Vec Ideal S1x64 .f32 := V c main_v46

/-- Entry (p, q) of point t's block of neighbour sums is entry (5000 t + p, q) of the array. -/
theorem ablk_entry (c : Dev nD) (t : Fin cfg1.N) (p : Fin 5000) (q : Fin 64) :
    ablk V c t (ix2 p q) = aarr V c (ix2 ⟨t.val * 5000 + p.val, row_lt t p⟩ q) := by
  show V c main_v45 (((cfg1.win 0).blk t).view.emb (ix2 p q)) = V c main_v45 (ix2 ⟨t.val * 5000 + p.val, row_lt t p⟩ q)
  refine congrArg _ (funext fun a => Fin.ext ?_)
  obtain ⟨e0, e1, -⟩ := idx_facts t
  match a with
  | ⟨0, _⟩ => show win1_0.index t (0 : Fin 2) * 5000 + 1 * p.val = t.val * 5000 + p.val; rw [e0]; omega
  | ⟨1, _⟩ => show win1_0.index t (1 : Fin 2) * 64 + 1 * q.val = q.val; rw [e1]; omega

/-- The same for the block of own terms. -/
theorem sblk_entry (c : Dev nD) (t : Fin cfg1.N) (p : Fin 5000) (q : Fin 64) :
    sblk V c t (ix2 p q) = sarr V c (ix2 ⟨t.val * 5000 + p.val, row_lt t p⟩ q) := by
  show V c main_v17_1 (((cfg1.win 1).blk t).view.emb (ix2 p q)) = V c main_v17_1 (ix2 ⟨t.val * 5000 + p.val, row_lt t p⟩ q)
  refine congrArg _ (funext fun a => Fin.ext ?_)
  obtain ⟨-, -, e2, e3, -⟩ := idx_facts t
  match a with
  | ⟨0, _⟩ => show win1_1.index t (0 : Fin 2) * 5000 + 1 * p.val = t.val * 5000 + p.val; rw [e2]; omega
  | ⟨1, _⟩ => show win1_1.index t (1 : Fin 2) * 64 + 1 * q.val = q.val; rw [e3]; omega

/-- Every point's bias block is the whole bias row. -/
theorem bblk_eq (c : Dev nD) (t : Fin cfg1.N) : bblk V c t = barr V c := by
  funext y
  show V c main_v46 (((cfg1.win 2).blk t).view.emb y) = V c main_v46 y
  refine congrArg _ (funext fun a => Fin.ext ?_)
  obtain ⟨-, -, -, -, e4, e5, -⟩ := idx_facts t
  match a with
  | ⟨0, _⟩ => show win1_2.index t (0 : Fin 2) * 1 + 1 * (y 0).val = (y 0).val; rw [e4]; omega
  | ⟨1, _⟩ => show win1_2.index t (1 : Fin 2) * 64 + 1 * (y 1).val = (y 1).val; rw [e5]; omega

/-- Where entry (p, q) of point t's block of the result array sits in the array. -/
theorem orow (t : Fin cfg1.N) (p : Fin 5000) (q : Fin 64) :
    ((cfg1.win 3).blk t).view.emb (ix2 p q) = ix2 ⟨t.val * 5000 + p.val, row_lt t p⟩ q := by
  refine funext fun a => Fin.ext ?_
  obtain ⟨-, -, -, -, -, -, e6, e7⟩ := idx_facts t
  match a with
  | ⟨0, _⟩ => show win1_3.index t (0 : Fin 2) * 5000 + 1 * p.val = t.val * 5000 + p.val; rw [e6]; omega
  | ⟨1, _⟩ => show win1_3.index t (1 : Fin 2) * 64 + 1 * q.val = q.val; rw [e7]; omega

/-- What point t writes back is block t of the layer's combination, b the vector the bias row is. -/
theorem flushed_o (c : Dev nD) (b : Vec Ideal S64 .f32)
    (hb : barr V c = shapeCast S1x64 b shapeCasts_S64_S1x64) (t : Fin cfg1.N) :
    (dat1 V c).flushed 3 t = ((cfg1.win 3).blk t).view.read (Elt Ideal) (Entry.post1 (aarr V c) (sarr V c) b) := by
  show (cfg1.win 3).cut (grid1.coords t) ((dat1 V c).after 3 t) = _
  rw [after1_3]
  unfold out1_3
  rw [View.canon_unit_zero offsets_zero]
  simp only [View.ld_unit_zero (S := S5000x64) offsets_zero, View.ld_unit_zero (S := S1x64) offsets_zero]
  funext j
  show k1_pay1 (F := Ideal) (bblk V c t) (ablk V c t) (sblk V c t) j
    = Entry.post1 (aarr V c) (sarr V c) b (((cfg1.win 3).blk t).view.emb j)
  obtain ⟨p, q, rfl⟩ : ∃ (p : Fin 5000) (q : Fin 64), j = ix2 p q := ⟨j 0, j 1, eq_ix2 j⟩
  rw [orow t p q, bblk_eq V c t]
  refine Entry.entry1 (barr V c) (ablk V c t) (sblk V c t) (aarr V c) (sarr V c) b p ⟨t.val * 5000 + p.val, row_lt t p⟩ q
    (ablk_entry V c t p q) (sblk_entry V c t p q) ?_
  rw [hb]
  exact Entry.row_entry b q

/-- An index of the result array is in point t's block iff its row and column are in the block's ranges. -/
theorem mem_blk3 (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v47).slice (win1_3.rect t)).set ↔ _
  rw [View.set_slice_whole, Rect.mem_set_unit]
  exact Iff.rfl

/-- The point whose block holds row r. -/
def pointOf (i : S100000x64.Idx) : Fin cfg1.N := ⟨(i 0).val / 5000, by
  have h : (i 0).val < 100000 := (i 0).isLt
  show (i 0).val / 5000 < 20
  omega⟩

/-- Every index of the result array is in the block of the point its row belongs to, and that point writes back. -/
theorem cover3 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  refine ⟨pointOf i, flush1_3 _, ?_⟩
  rw [mem_blk3]
  obtain ⟨-, -, -, -, -, -, e6, e7⟩ := idx_facts (pointOf i)
  have hv : (pointOf i).val = (i 0).val / 5000 := rfl
  intro a
  match a with
  | ⟨0, _⟩ =>
    show win1_3.index (pointOf i) (0 : Fin 2) * 5000 ≤ (i 0).val ∧ (i 0).val < win1_3.index (pointOf i) (0 : Fin 2) * 5000 + 5000
    rw [e6, hv]; omega
  | ⟨1, _⟩ =>
    show win1_3.index (pointOf i) (1 : Fin 2) * 64 ≤ (i 1).val ∧ (i 1).val < win1_3.index (pointOf i) (1 : Fin 2) * 64 + 64
    rw [e7]; omega

/-- THE RESULT ARRAY after the launch: the layer's combination of the two arrays and the bias. -/
theorem final_o (c : Dev nD) (b : Vec Ideal S64 .f32) (hb : barr V c = shapeCast S1x64 b shapeCasts_S64_S1x64) :
    (dat1 V c).arrAt 3 cfg1.N = Entry.post1 (aarr V c) (sarr V c) b :=
  (dat1 V c).arrAt_eq_of_cover 3 _ (fun t _ => flushed_o V c b hb t) cover3

end Cert.KernelIdeal.Fin1

end
-- ==== Proof.Fin3.lean ====
/-
  A combining launch, from blocks to the array.

  The grid has 20 points; point t holds rows 5000 t … 5000 t + 4999 of the neighbour sums and of the own terms, the
  whole 1 x 64 bias row, and writes the same rows of the result array. So row p of point t's block is array row
  5000 t + p, every array row r lies in point r / 5000's block, and the result array ends, whatever it held before,
  at the layer's combination of the two arrays and the bias: entry by entry what the body stores (FinalEntry.lean).
  Stated at any contents the launch is entered with.
-/
import proofs.«151515_j12128987644486_1_alg».proof.Proof.FinalEntry
import proofs.«151515_j12128987644486_1_alg».proof.Proof.Gen.KernelIdeal.Frame
import Idealize.ShloMosaic.Lib.Pipeline.Value

set_option maxRecDepth 16384

noncomputable section

namespace Cert.KernelIdeal.Fin3

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem offsets_zero : (![0, 0] : Fin 2 → Nat) = fun _ => 0 := funext fun a => by fin_cases a <;> rfl

/-- The index maps over the grid: the three row windows sit at block row t, the bias row at its one block. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- A point's number is below 20. -/
theorem point_lt (t : Fin cfg3.N) : t.val < 20 := t.isLt

/-- Row p of point t's block is a row of the array. -/
theorem row_lt (t : Fin cfg3.N) (p : Fin 5000) : t.val * 5000 + p.val < 100000 := by
  have := point_lt t; have := p.isLt; omega

/-- The blocks and arrays by their literal types. -/
abbrev ablk (c : Dev nD) (t : Fin cfg3.N) : Vec Ideal S5000x64 .f32 := iblk3 V c 0 t
abbrev sblk (c : Dev nD) (t : Fin cfg3.N) : Vec Ideal S5000x64 .f32 := iblk3 V c 1 t
abbrev bblk (c : Dev nD) (t : Fin cfg3.N) : Vec Ideal S1x64 .f32 := iblk3 V c 2 t
abbrev aarr (c : Dev nD) : Vec Ideal S100000x64 .f32 := V c main_v76
abbrev sarr (c : Dev nD) : Vec Ideal S100000x64 .f32 := V c main_v48_1
abbrev barr (c : Dev nD) : Vec Ideal S1x64 .f32 := V c main_v77

/-- Entry (p, q) of point t's block of neighbour sums is entry (5000 t + p, q) of the array. -/
theorem ablk_entry (c : Dev nD) (t : Fin cfg3.N) (p : Fin 5000) (q : Fin 64) :
    ablk V c t (ix2 p q) = aarr V c (ix2 ⟨t.val * 5000 + p.val, row_lt t p⟩ q) := by
  show V c main_v76 (((cfg3.win 0).blk t).view.emb (ix2 p q)) = V c main_v76 (ix2 ⟨t.val * 5000 + p.val, row_lt t p⟩ q)
  refine congrArg _ (funext fun a => Fin.ext ?_)
  obtain ⟨e0, e1, -⟩ := idx_facts t
  match a with
  | ⟨0, _⟩ => show win3_0.index t (0 : Fin 2) * 5000 + 1 * p.val = t.val * 5000 + p.val; rw [e0]; omega
  | ⟨1, _⟩ => show win3_0.index t (1 : Fin 2) * 64 + 1 * q.val = q.val; rw [e1]; omega

/-- The same for the block of own terms. -/
theorem sblk_entry (c : Dev nD) (t : Fin cfg3.N) (p : Fin 5000) (q : Fin 64) :
    sblk V c t (ix2 p q) = sarr V c (ix2 ⟨t.val * 5000 + p.val, row_lt t p⟩ q) := by
  show V c main_v48_1 (((cfg3.win 1).blk t).view.emb (ix2 p q)) = V c main_v48_1 (ix2 ⟨t.val * 5000 + p.val, row_lt t p⟩ q)
  refine congrArg _ (funext fun a => Fin.ext ?_)
  obtain ⟨-, -, e2, e3, -⟩ := idx_facts t
  match a with
  | ⟨0, _⟩ => show win3_1.index t (0 : Fin 2) * 5000 + 1 * p.val = t.val * 5000 + p.val; rw [e2]; omega
  | ⟨1, _⟩ => show win3_1.index t (1 : Fin 2) * 64 + 1 * q.val = q.val; rw [e3]; omega

/-- Every point's bias block is the whole bias row. -/
theorem bblk_eq (c : Dev nD) (t : Fin cfg3.N) : bblk V c t = barr V c := by
  funext y
  show V c main_v77 (((cfg3.win 2).blk t).view.emb y) = V c main_v77 y
  refine congrArg _ (funext fun a => Fin.ext ?_)
  obtain ⟨-, -, -, -, e4, e5, -⟩ := idx_facts t
  match a with
  | ⟨0, _⟩ => show win3_2.index t (0 : Fin 2) * 1 + 1 * (y 0).val = (y 0).val; rw [e4]; omega
  | ⟨1, _⟩ => show win3_2.index t (1 : Fin 2) * 64 + 1 * (y 1).val = (y 1).val; rw [e5]; omega

/-- Where entry (p, q) of point t's block of the result array sits in the array. -/
theorem orow (t : Fin cfg3.N) (p : Fin 5000) (q : Fin 64) :
    ((cfg3.win 3).blk t).view.emb (ix2 p q) = ix2 ⟨t.val * 5000 + p.val, row_lt t p⟩ q := by
  refine funext fun a => Fin.ext ?_
  obtain ⟨-, -, -, -, -, -, e6, e7⟩ := idx_facts t
  match a with
  | ⟨0, _⟩ => show win3_3.index t (0 : Fin 2) * 5000 + 1 * p.val = t.val * 5000 + p.val; rw [e6]; omega
  | ⟨1, _⟩ => show win3_3.index t (1 : Fin 2) * 64 + 1 * q.val = q.val; rw [e7]; omega

/-- What point t writes back is block t of the layer's combination, b the vector the bias row is. -/
theorem flushed_o (c : Dev nD) (b : Vec Ideal S64 .f32)
    (hb : barr V c = shapeCast S1x64 b shapeCasts_S64_S1x64) (t : Fin cfg3.N) :
    (dat3 V c).flushed 3 t = ((cfg3.win 3).blk t).view.read (Elt Ideal) (Entry.post3 (aarr V c) (sarr V c) b) := by
  show (cfg3.win 3).cut (grid3.coords t) ((dat3 V c).after 3 t) = _
  rw [after3_3]
  unfold out3_3
  rw [View.canon_unit_zero offsets_zero]
  simp only [View.ld_unit_zero (S := S5000x64) offsets_zero, View.ld_unit_zero (S := S1x64) offsets_zero]
  funext j
  show k3_pay1 (F := Ideal) (bblk V c t) (ablk V c t) (sblk V c t) j
    = Entry.post3 (aarr V c) (sarr V c) b (((cfg3.win 3).blk t).view.emb j)
  obtain ⟨p, q, rfl⟩ : ∃ (p : Fin 5000) (q : Fin 64), j = ix2 p q := ⟨j 0, j 1, eq_ix2 j⟩
  rw [orow t p q, bblk_eq V c t]
  refine Entry.entry3 (barr V c) (ablk V c t) (sblk V c t) (aarr V c) (sarr V c) b p ⟨t.val * 5000 + p.val, row_lt t p⟩ q
    (ablk_entry V c t p q) (sblk_entry V c t p q) ?_
  rw [hb]
  exact Entry.row_entry b q

/-- An index of the result array is in point t's block iff its row and column are in the block's ranges. -/
theorem mem_blk3 (t : Fin cfg3.N) (i : S100000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v78).slice (win3_3.rect t)).set ↔ _
  rw [View.set_slice_whole, Rect.mem_set_unit]
  exact Iff.rfl

/-- The point whose block holds row r. -/
def pointOf (i : S100000x64.Idx) : Fin cfg3.N := ⟨(i 0).val / 5000, by
  have h : (i 0).val < 100000 := (i 0).isLt
  show (i 0).val / 5000 < 20
  omega⟩

/-- Every index of the result array is in the block of the point its row belongs to, and that point writes back. -/
theorem cover3 (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  refine ⟨pointOf i, flush3_3 _, ?_⟩
  rw [mem_blk3]
  obtain ⟨-, -, -, -, -, -, e6, e7⟩ := idx_facts (pointOf i)
  have hv : (pointOf i).val = (i 0).val / 5000 := rfl
  intro a
  match a with
  | ⟨0, _⟩ =>
    show win3_3.index (pointOf i) (0 : Fin 2) * 5000 ≤ (i 0).val ∧ (i 0).val < win3_3.index (pointOf i) (0 : Fin 2) * 5000 + 5000
    rw [e6, hv]; omega
  | ⟨1, _⟩ =>
    show win3_3.index (pointOf i) (1 : Fin 2) * 64 ≤ (i 1).val ∧ (i 1).val < win3_3.index (pointOf i) (1 : Fin 2) * 64 + 64
    rw [e7]; omega

/-- THE RESULT ARRAY after the launch: the layer's combination of the two arrays and the bias. -/
theorem final_o (c : Dev nD) (b : Vec Ideal S64 .f32) (hb : barr V c = shapeCast S1x64 b shapeCasts_S64_S1x64) :
    (dat3 V c).arrAt 3 cfg3.N = Entry.post3 (aarr V c) (sarr V c) b :=
  (dat3 V c).arrAt_eq_of_cover 3 _ (fun t _ => flushed_o V c b hb t) cover3

end Cert.KernelIdeal.Fin3

end
-- ==== Proof.Chain.lean ====
/-
  The program's run, boundary by boundary: what the result array holds at the end is the network of the arguments.

  The program is seven stretches: host operations (the edge rows, the degrees and dis, dis as a column), the first
  linear launch, host operations (the neighbour sum of the first product; the bias as a row), the first combining
  launch, the second linear launch, host operations (the second neighbour sum and bias row), the second combining
  launch. The contents of the buffers at each boundary are a fold through these stretches. Here each buffer a later
  stretch reads is followed back through the fold: a launch changes only its own result arrays, a host stretch only
  the buffers its operations write, so the edge rows, dis, its column and the weights and biases reach every reader
  as they were first computed; each launch's result arrays are the whole-array expressions of the arrays it was
  entered with; and each host stretch's results are its operations applied to what it reads. Put together, the result
  array is convolution, rectifier, convolution of the arguments.
-/
import proofs.«151515_j12128987644486_1_alg».proof.Proof.Lin0
import proofs.«151515_j12128987644486_1_alg».proof.Proof.Lin2
import proofs.«151515_j12128987644486_1_alg».proof.Proof.Fin1
import proofs.«151515_j12128987644486_1_alg».proof.Proof.Fin3
import Idealize.ShloMosaic.Lib.StableHlo.Run

set_option maxRecDepth 16384

noncomputable section

namespace Cert.KernelIdeal.Chain

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- No operation of a literal host stretch writes the buffer: it holds after the stretch what it held before. -/
local macro "host_keeps" : tactic => `(tactic|
  (refine StableHlo.after_of_forall_not_mem _ _ (List.forall_iff_forall_mem.mp ?_)
   simp only [hostOps0, hostOps1, hostOps3, List.flatten_cons, List.flatten_nil, List.append_nil, List.cons_append,
     List.nil_append, List.Forall, StableHlo.nullary_writes, StableHlo.unary_writes, StableHlo.binary_writes,
     StableHlo.ternary_writes, StableHlo.quaternary_writes, StableHlo.reshape_writes, StableHlo.binaryIndexed_writes,
     Finset.mem_singleton]
   repeat' apply And.intro
   all_goals exact StableHlo.devRef_ne_of_ne (by decide)))

/-! ## The arguments, by their literal types -/

abbrev xIn : Vec Ideal S100000x64 .f32 := m ((c : Thread nD τ).loc main_arg0)
abbrev eIn : Vec Ideal S2x1000000 .i32 := m ((c : Thread nD τ).loc main_arg1)
abbrev w1In : Vec Ideal S64x64 .f32 := m ((c : Thread nD τ).loc main_arg2)
abbrev b1In : Vec Ideal S64 .f32 := m ((c : Thread nD τ).loc main_arg3)
abbrev w2In : Vec Ideal S64x64 .f32 := m ((c : Thread nD τ).loc main_arg4)
abbrev b2In : Vec Ideal S64 .f32 := m ((c : Thread nD τ).loc main_arg5)

/-- The edge rows and dis of the argument edge list. -/
abbrev src : Vec Ideal S1000000 .i32 := Gcn.srcOf (eIn m c)
abbrev dst : Vec Ideal S1000000 .i32 := Gcn.dstOf (eIn m c)
abbrev dis : Vec Ideal S100000 .f32 := Gcn.invSqrtDeg (dst m c)

/-! ## After the first host stretch -/

set_option maxHeartbeats 1000000 in
theorem W1_src : W1 m ρ c (Proc.devRef .tc main_v1) = src m c := by
  show StableHlo.after hostOps0 (W0 m ρ c) (Proc.devRef .tc main_v1) = _
  after_results_simp
  rfl
set_option maxHeartbeats 1000000 in
theorem W1_dst : W1 m ρ c (Proc.devRef .tc main_v3) = dst m c := by
  show StableHlo.after hostOps0 (W0 m ρ c) (Proc.devRef .tc main_v3) = _
  after_results_simp
  rfl
set_option maxHeartbeats 1000000 in
theorem W1_dis : W1 m ρ c (Proc.devRef .tc main_v15) = dis m c := by
  show StableHlo.after hostOps0 (W0 m ρ c) (Proc.devRef .tc main_v15) = _
  after_results_simp
  rfl
set_option maxHeartbeats 1000000 in
theorem W1_col : W1 m ρ c (Proc.devRef .tc main_v16) = shapeCast S100000x1 (dis m c) shapeCasts_S100000_S100000x1 := by
  show StableHlo.after hostOps0 (W0 m ρ c) (Proc.devRef .tc main_v16) = _
  after_results_simp
  rfl
theorem W1_x : W1 m ρ c (Proc.devRef .tc main_arg0) = xIn m c := by
  show StableHlo.after hostOps0 (W0 m ρ c) (Proc.devRef .tc main_arg0) = W0 m ρ c (Proc.devRef .tc main_arg0)
  host_keeps
theorem W1_w1 : W1 m ρ c (Proc.devRef .tc main_arg2) = w1In m c := by
  show StableHlo.after hostOps0 (W0 m ρ c) (Proc.devRef .tc main_arg2) = W0 m ρ c (Proc.devRef .tc main_arg2)
  host_keeps
theorem W1_b1 : W1 m ρ c (Proc.devRef .tc main_arg3) = b1In m c := by
  show StableHlo.after hostOps0 (W0 m ρ c) (Proc.devRef .tc main_arg3) = W0 m ρ c (Proc.devRef .tc main_arg3)
  host_keeps
theorem W1_w2 : W1 m ρ c (Proc.devRef .tc main_arg4) = w2In m c := by
  show StableHlo.after hostOps0 (W0 m ρ c) (Proc.devRef .tc main_arg4) = W0 m ρ c (Proc.devRef .tc main_arg4)
  host_keeps
theorem W1_b2 : W1 m ρ c (Proc.devRef .tc main_arg5) = b2In m c := by
  show StableHlo.after hostOps0 (W0 m ρ c) (Proc.devRef .tc main_arg5) = W0 m ρ c (Proc.devRef .tc main_arg5)
  host_keeps

/-! ## After the first linear launch -/

/-- The first product: the node rows times the first matrix. -/
abbrev h1 : Vec Ideal S100000x64 .f32 := Gcn.rowsTimes (xIn m c) (w1In m c)

theorem W2_h : W2 m ρ c (Proc.devRef .tc main_v17_0) = h1 m c :=
  (W2_arr m ρ c 3).trans ((Lin0.final_h (V1 m ρ) c).trans (congrArg₂ Gcn.rowsTimes (W1_x m ρ c) (W1_w1 m ρ c)))
theorem W2_s : W2 m ρ c (Proc.devRef .tc main_v17_1) = Gcn.selfLoop (h1 m c) (dis m c) :=
  (W2_arr m ρ c 4).trans ((Lin0.final_s (V1 m ρ) c (dis m c) (W1_col m ρ c)).trans
    (congrArg (fun h => Gcn.selfLoop h (dis m c)) (congrArg₂ Gcn.rowsTimes (W1_x m ρ c) (W1_w1 m ρ c))))
theorem W2_src : W2 m ρ c (Proc.devRef .tc main_v1) = src m c := (W2_of_ne m ρ c main_v1 (by decide)).trans (W1_src m ρ c)
theorem W2_dst : W2 m ρ c (Proc.devRef .tc main_v3) = dst m c := (W2_of_ne m ρ c main_v3 (by decide)).trans (W1_dst m ρ c)
theorem W2_dis : W2 m ρ c (Proc.devRef .tc main_v15) = dis m c := (W2_of_ne m ρ c main_v15 (by decide)).trans (W1_dis m ρ c)
theorem W2_col : W2 m ρ c (Proc.devRef .tc main_v16) = shapeCast S100000x1 (dis m c) shapeCasts_S100000_S100000x1 :=
  (W2_arr m ρ c 2).trans ((((dat0 (V1 m ρ) c).arrAt_in 2 rfl _).trans (A_eq0 (V1 m ρ) c 2)).trans (W1_col m ρ c))
theorem W2_b1 : W2 m ρ c (Proc.devRef .tc main_arg3) = b1In m c := (W2_of_ne m ρ c main_arg3 (by decide)).trans (W1_b1 m ρ c)
theorem W2_w2 : W2 m ρ c (Proc.devRef .tc main_arg4) = w2In m c := (W2_of_ne m ρ c main_arg4 (by decide)).trans (W1_w2 m ρ c)
theorem W2_b2 : W2 m ρ c (Proc.devRef .tc main_arg5) = b2In m c := (W2_of_ne m ρ c main_arg5 (by decide)).trans (W1_b2 m ρ c)

/-! ## After the second host stretch -/

set_option maxHeartbeats 1000000 in
theorem W3_agg : W3 m ρ c (Proc.devRef .tc main_v45)
    = Gcn.aggregate (W2 m ρ c (Proc.devRef .tc main_v17_0)) (W2 m ρ c (Proc.devRef .tc main_v15)) (W2 m ρ c (Proc.devRef .tc main_v1)) (W2 m ρ c (Proc.devRef .tc main_v3)) := by
  show StableHlo.after hostOps1 (W2 m ρ c) (Proc.devRef .tc main_v45) = _
  after_results_simp
  rfl
set_option maxHeartbeats 1000000 in
theorem W3_row : W3 m ρ c (Proc.devRef .tc main_v46) = shapeCast S1x64 (W2 m ρ c (Proc.devRef .tc main_arg3)) shapeCasts_S64_S1x64 := by
  show StableHlo.after hostOps1 (W2 m ρ c) (Proc.devRef .tc main_v46) = _
  after_results_simp
  rfl
theorem W3_s : W3 m ρ c (Proc.devRef .tc main_v17_1) = Gcn.selfLoop (h1 m c) (dis m c) := by
  refine Eq.trans ?_ (W2_s m ρ c)
  show StableHlo.after hostOps1 (W2 m ρ c) (Proc.devRef .tc main_v17_1) = W2 m ρ c (Proc.devRef .tc main_v17_1)
  host_keeps
theorem W3_src : W3 m ρ c (Proc.devRef .tc main_v1) = src m c := by
  refine Eq.trans ?_ (W2_src m ρ c)
  show StableHlo.after hostOps1 (W2 m ρ c) (Proc.devRef .tc main_v1) = W2 m ρ c (Proc.devRef .tc main_v1)
  host_keeps
theorem W3_dst : W3 m ρ c (Proc.devRef .tc main_v3) = dst m c := by
  refine Eq.trans ?_ (W2_dst m ρ c)
  show StableHlo.after hostOps1 (W2 m ρ c) (Proc.devRef .tc main_v3) = W2 m ρ c (Proc.devRef .tc main_v3)
  host_keeps
theorem W3_dis : W3 m ρ c (Proc.devRef .tc main_v15) = dis m c := by
  refine Eq.trans ?_ (W2_dis m ρ c)
  show StableHlo.after hostOps1 (W2 m ρ c) (Proc.devRef .tc main_v15) = W2 m ρ c (Proc.devRef .tc main_v15)
  host_keeps
theorem W3_col : W3 m ρ c (Proc.devRef .tc main_v16) = shapeCast S100000x1 (dis m c) shapeCasts_S100000_S100000x1 := by
  refine Eq.trans ?_ (W2_col m ρ c)
  show StableHlo.after hostOps1 (W2 m ρ c) (Proc.devRef .tc main_v16) = W2 m ρ c (Proc.devRef .tc main_v16)
  host_keeps
theorem W3_w2 : W3 m ρ c (Proc.devRef .tc main_arg4) = w2In m c := by
  refine Eq.trans ?_ (W2_w2 m ρ c)
  show StableHlo.after hostOps1 (W2 m ρ c) (Proc.devRef .tc main_arg4) = W2 m ρ c (Proc.devRef .tc main_arg4)
  host_keeps
theorem W3_b2 : W3 m ρ c (Proc.devRef .tc main_arg5) = b2In m c := by
  refine Eq.trans ?_ (W2_b2 m ρ c)
  show StableHlo.after hostOps1 (W2 m ρ c) (Proc.devRef .tc main_arg5) = W2 m ρ c (Proc.devRef .tc main_arg5)
  host_keeps

/-! ## After the first combining launch -/

/-- The first layer's output: the rectified combination of the first product. -/
abbrev z1 : Vec Ideal S100000x64 .f32 :=
  Entry.post1 (Gcn.aggregate (h1 m c) (dis m c) (src m c) (dst m c)) (Gcn.selfLoop (h1 m c) (dis m c)) (b1In m c)

theorem W4_z : W4 m ρ c (Proc.devRef .tc main_v47) = z1 m c := by
  refine (W4_arr m ρ c 3).trans ((Fin1.final_o (V3 m ρ) c (b1In m c) ?_).trans ?_)
  · exact (W3_row m ρ c).trans (congrArg (fun b => shapeCast S1x64 b shapeCasts_S64_S1x64) (W2_b1 m ρ c))
  · refine congrArg₂ (fun A S => Entry.post1 A S (b1In m c)) ?_ (W3_s m ρ c)
    refine (W3_agg m ρ c).trans ?_
    rw [W2_h, W2_dis, W2_src, W2_dst]
theorem W4_src : W4 m ρ c (Proc.devRef .tc main_v1) = src m c := (W4_of_ne m ρ c main_v1 (by decide)).trans (W3_src m ρ c)
theorem W4_dst : W4 m ρ c (Proc.devRef .tc main_v3) = dst m c := (W4_of_ne m ρ c main_v3 (by decide)).trans (W3_dst m ρ c)
theorem W4_dis : W4 m ρ c (Proc.devRef .tc main_v15) = dis m c := (W4_of_ne m ρ c main_v15 (by decide)).trans (W3_dis m ρ c)
theorem W4_col : W4 m ρ c (Proc.devRef .tc main_v16) = shapeCast S100000x1 (dis m c) shapeCasts_S100000_S100000x1 :=
  (W4_of_ne m ρ c main_v16 (by decide)).trans (W3_col m ρ c)
theorem W4_w2 : W4 m ρ c (Proc.devRef .tc main_arg4) = w2In m c := (W4_of_ne m ρ c main_arg4 (by decide)).trans (W3_w2 m ρ c)
theorem W4_b2 : W4 m ρ c (Proc.devRef .tc main_arg5) = b2In m c := (W4_of_ne m ρ c main_arg5 (by decide)).trans (W3_b2 m ρ c)

/-! ## After the second linear launch -/

/-- The second product: the first layer's output rows times the second matrix. -/
abbrev h2 : Vec Ideal S100000x64 .f32 := Gcn.rowsTimes (z1 m c) (w2In m c)

theorem W5_h : W5 m ρ c (Proc.devRef .tc main_v48_0) = h2 m c :=
  (W5_arr m ρ c 3).trans ((Lin2.final_h (V4 m ρ) c).trans (congrArg₂ Gcn.rowsTimes (W4_z m ρ c) (W4_w2 m ρ c)))
theorem W5_s : W5 m ρ c (Proc.devRef .tc main_v48_1) = Gcn.selfLoop (h2 m c) (dis m c) :=
  (W5_arr m ρ c 4).trans ((Lin2.final_s (V4 m ρ) c (dis m c) (W4_col m ρ c)).trans
    (congrArg (fun h => Gcn.selfLoop h (dis m c)) (congrArg₂ Gcn.rowsTimes (W4_z m ρ c) (W4_w2 m ρ c))))
theorem W5_src : W5 m ρ c (Proc.devRef .tc main_v1) = src m c := (W5_of_ne m ρ c main_v1 (by decide)).trans (W4_src m ρ c)
theorem W5_dst : W5 m ρ c (Proc.devRef .tc main_v3) = dst m c := (W5_of_ne m ρ c main_v3 (by decide)).trans (W4_dst m ρ c)
theorem W5_dis : W5 m ρ c (Proc.devRef .tc main_v15) = dis m c := (W5_of_ne m ρ c main_v15 (by decide)).trans (W4_dis m ρ c)
theorem W5_b2 : W5 m ρ c (Proc.devRef .tc main_arg5) = b2In m c := (W5_of_ne m ρ c main_arg5 (by decide)).trans (W4_b2 m ρ c)

/-! ## After the third host stretch -/

set_option maxHeartbeats 1000000 in
theorem W6_agg : W6 m ρ c (Proc.devRef .tc main_v76)
    = Gcn.aggregate (W5 m ρ c (Proc.devRef .tc main_v48_0)) (W5 m ρ c (Proc.devRef .tc main_v15)) (W5 m ρ c (Proc.devRef .tc main_v1)) (W5 m ρ c (Proc.devRef .tc main_v3)) := by
  show StableHlo.after hostOps3 (W5 m ρ c) (Proc.devRef .tc main_v76) = _
  after_results_simp
  rfl
set_option maxHeartbeats 1000000 in
theorem W6_row : W6 m ρ c (Proc.devRef .tc main_v77) = shapeCast S1x64 (W5 m ρ c (Proc.devRef .tc main_arg5)) shapeCasts_S64_S1x64 := by
  show StableHlo.after hostOps3 (W5 m ρ c) (Proc.devRef .tc main_v77) = _
  after_results_simp
  rfl
theorem W6_s : W6 m ρ c (Proc.devRef .tc main_v48_1) = Gcn.selfLoop (h2 m c) (dis m c) := by
  refine Eq.trans ?_ (W5_s m ρ c)
  show StableHlo.after hostOps3 (W5 m ρ c) (Proc.devRef .tc main_v48_1) = W5 m ρ c (Proc.devRef .tc main_v48_1)
  host_keeps

/-! ## After the second combining launch: the result -/

/-- The result array at the end of the run is the network of the six arguments. -/
theorem result_is_net :
    W7 m ρ c (Proc.devRef .tc main_v78) = Gcn.net (xIn m c) (eIn m c) (w1In m c) (b1In m c) (w2In m c) (b2In m c) := by
  refine (W7_arr m ρ c 3).trans ((Fin3.final_o (V6 m ρ) c (b2In m c) ?_).trans ?_)
  · exact (W6_row m ρ c).trans (congrArg (fun b => shapeCast S1x64 b shapeCasts_S64_S1x64) (W5_b2 m ρ c))
  · have hagg : W6 m ρ c (Proc.devRef .tc main_v76) = Gcn.aggregate (h2 m c) (dis m c) (src m c) (dst m c) := by
      refine (W6_agg m ρ c).trans ?_
      rw [W5_h, W5_dis, W5_src, W5_dst]
    exact (congrArg₂ (fun A S => Entry.post3 A S (b2In m c)) hagg (W6_s m ρ c)).trans rfl

end Cert.KernelIdeal.Chain

end
-- ==== Proof.RefNet.lean ====
/-
  The reference program computes the network: its result, as a term of its arguments, is the two-layer graph
  convolution of Layer.lean. Its lines are that function's operations one by one (the degrees and their inverse
  square roots are computed once per layer from the same edge list, so the two copies are one term), so the
  equation holds by unfolding, for any float family.
-/
import proofs.«151515_j12128987644486_1_alg».proof.Proof.Layer
import proofs.«151515_j12128987644486_1_alg».proof.Proof.Gen.ReferenceIdeal.Run

noncomputable section

namespace Cert.Gcn

open Idealize.ShloMosaic Idealize.ShloMosaic.TcCoe Idealize.SL.Sem Cert.ReferenceIdeal

variable {F : FTy → Type} [FloatOps F]

set_option maxRecDepth 65536 in
set_option maxHeartbeats 4000000 in
/-- The reference's result term is the network of its six arguments. -/
theorem reference_is_net (m : (ℓ : Loc nD τ sig) → Buf (Elt F) ℓ) (c : Dev nD) :
    Cert.ReferenceIdeal.Value.res_main_v102 m c
      = net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.Value.res_main_v102
  rfl

end Cert.Gcn

end
-- ==== Proof.lean ====
/-
  The certificate of a two-layer graph convolution: per layer, the node rows times a 64 x 64 matrix and that product
  with row i scaled by dis(i)², computed 5000 rows at a time in one launch; the neighbour sum
  Σ_{e : dst e = i} h(src e) · dis(src e) · dis(dst e) by the host's gather and scatter-add; and sum + own term + bias
  (the first layer then max(·, 0)) in a second launch, again 5000 rows at a time — against the same network written
  with whole-array operations, dis = (1 + in-degree)^(-1/2) recomputed per layer.

  On the extended reals the two are one function (Layer.lean's net): narrowing to bf16 on the way into the matrix unit
  is the identity, a block's product accumulated from zero is the rows' part of the whole product (the same sum over
  k, in the same order), the blocks of 5000 rows tile the 100000 rows, dis kept as a column and squared inside the
  launch is the squared vector spread along the rows, and the bias as a reshaped row is the bias broadcast. The gather
  and the scatter-add are the same operations on both sides and are never opened: they are fed equal arrays. No law
  here needs finite inputs (only the order of additions and products both sides share is used), so the precondition
  is not opened.

  The three frames are the generated ones (the reference's is its generated run with the result dropped); the
  idealization rewrote nothing, so its claim is trivial; the algebraic claim puts the kernel program's run with its
  result named (KernelRun.lean, Chain.lean) beside the reference's generated run (RefNet.lean).
-/
import proofs.«151515_j12128987644486_1_alg».proof.Defs
import proofs.«151515_j12128987644486_1_alg».proof.Proof.Gen.Kernel
import proofs.«151515_j12128987644486_1_alg».proof.Proof.Gen.Kernel.Skeleton
import proofs.«151515_j12128987644486_1_alg».proof.Proof.Gen.Kernel.Launch
import proofs.«151515_j12128987644486_1_alg».proof.Proof.Gen.Kernel.Points
import proofs.«151515_j12128987644486_1_alg».proof.Proof.Gen.Kernel.Frame
import proofs.«151515_j12128987644486_1_alg».proof.Proof.Gen.KernelIdeal
import proofs.«151515_j12128987644486_1_alg».proof.Proof.Gen.KernelIdeal.Skeleton
import proofs.«151515_j12128987644486_1_alg».proof.Proof.Gen.KernelIdeal.Launch
import proofs.«151515_j12128987644486_1_alg».proof.Proof.Gen.KernelIdeal.Points
import proofs.«151515_j12128987644486_1_alg».proof.Proof.Gen.KernelIdeal.Frame
import proofs.«151515_j12128987644486_1_alg».proof.Proof.Gen.ReferenceIdeal
import proofs.«151515_j12128987644486_1_alg».proof.Proof.Gen.Pre_finite_inputs
import proofs.«151515_j12128987644486_1_alg».proof.Proof.Gen.ReferenceIdeal.Run
import proofs.«151515_j12128987644486_1_alg».proof.Proof.Gen.ReferenceIdeal.Read
import proofs.«151515_j12128987644486_1_alg».proof.Proof.KernelRun
import proofs.«151515_j12128987644486_1_alg».proof.Proof.Chain
import proofs.«151515_j12128987644486_1_alg».proof.Proof.RefNet
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs, from memories that agree on the six arguments, end with the network of those arguments in their
    result arrays. -/
theorem algebraic : Cert.algebraic_KernelIdeal_ReferenceIdeal := by
  intro m ρ m' ρ' _ hagree
  refine ⟨fun c => Cert.Gcn.net (Cert.KernelIdeal.Chain.xIn m c) (Cert.KernelIdeal.Chain.eIn m c)
      (Cert.KernelIdeal.Chain.w1In m c) (Cert.KernelIdeal.Chain.b1In m c) (Cert.KernelIdeal.Chain.w2In m c)
      (Cert.KernelIdeal.Chain.b2In m c), ?_, ?_⟩
  · exact (θ_run Cert.KernelIdeal.defs _ _).mono
      (fun _ h c => ⟨(h c).1.trans (Cert.KernelIdeal.Chain.result_is_net m ρ c), (h c).2⟩)
      (Cert.KernelIdeal.GenRun.run_named m ρ)
  · refine (θ_run Cert.ReferenceIdeal.defs _ _).mono (fun _ h c => ⟨(h c).1.trans ?_, (h c).2⟩)
      (Cert.ReferenceIdeal.Value.run (F := Ideal) m' ρ')
    refine (Cert.Gcn.reference_is_net m' c).trans ?_
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
